-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x256 .f32) (main_arg6 : FVec F S40 .f32) (main_arg7 : FVec F S40x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S40x256 .f32 := Host.absf main_arg5
  let main_cst_6 : FVec F S_ .f32 := constant S_ .f32 0x7F800000#32
  let main_v20 : FVec F S40x256 .f32 := broadcastInDim S40x256 ![] bcast_S_S40x256 main_cst_6
  let main_v21 : IVec S40x256 1 := cmpf .olt main_v19 main_v20
  let main_c_7 : IVec S_ 1 := constantI S_ 1 1#1
  let main_v22 : IVec S_ 1 := (fun x v => Host.reduce IntOp.andi x v reducesTo_S40x256_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x256 .f32 := Host.absf main_arg7
  let main_cst_10 : FVec F S_ .f32 := constant S_ .f32 0x7F800000#32
  let main_v30 : FVec F S40x256 .f32 := broadcastInDim S40x256 ![] bcast_S_S40x256 main_cst_10
  let main_v31 : IVec S40x256 1 := cmpf .olt main_v29 main_v30
  let main_c_11 : IVec S_ 1 := constantI S_ 1 1#1
  let main_v32 : IVec S_ 1 := (fun x v => Host.reduce IntOp.andi x v reducesTo_S40x256_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256 .f32) (main_arg4 : FVec F S256x128 .f32) (main_arg5 : FVec F S40x256 .f32) (main_arg6 : FVec F S40 .f32) (main_arg7 : FVec F S40x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S128x256 : Shape := ⟨2, ![128, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S256x40 : Shape := ⟨2, ![256, 40]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩

abbrev nBuf : Space → Nat
  | .hbm => 62
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S40x256, .f32⟩
  | .hbm, ⟨6, _⟩ => ⟨S40, .f32⟩
  | .hbm, ⟨7, _⟩ => ⟨S40x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S128x256, .f32⟩
  | .hbm, ⟨39, _⟩ => ⟨S128x256, .bf16⟩
  | .hbm, ⟨40, _⟩ => ⟨S128x256, .f32⟩
  | .hbm, ⟨41, _⟩ => ⟨S128x256, .bf16⟩
  | .hbm, ⟨42, _⟩ => ⟨S50000x256, .f32⟩
  | .hbm, ⟨43, _⟩ => ⟨S256x40, .f32⟩
  | .hbm, ⟨44, _⟩ => ⟨S256x40, .bf16⟩
  | .hbm, ⟨45, _⟩ => ⟨S50000x40, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x40, .f32⟩
  | .hbm, ⟨55, _⟩ => ⟨S_, .f32⟩
  | .hbm, ⟨56, _⟩ => ⟨S50000x40, .f32⟩
  | .hbm, ⟨57, _⟩ => ⟨S800000x1, .i32⟩
  | .hbm, ⟨58, _⟩ => ⟨S50000x40, .f32⟩
  | .hbm, ⟨59, _⟩ => ⟨S256x40, .f32⟩
  | .hbm, ⟨60, _⟩ => ⟨S256x40, .bf16⟩
  | .hbm, ⟨61, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x256, .bf16⟩
  | .local _ .vmem, ⟨7, _⟩ => ⟨S256, .f32⟩
  | .local _ .vmem, ⟨8, _⟩ => ⟨S128x256, .bf16⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x40, .bf16⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x1, .f32⟩
  | .local _ .vmem, ⟨19, _⟩ => ⟨S2000x1, .f32⟩
  | .local _ .vmem, ⟨20, _⟩ => ⟨S2000x256, .f32⟩
  | .local _ .vmem, ⟨21, _⟩ => ⟨S2000x256, .f32⟩
  | .local _ .vmem, ⟨22, _⟩ => ⟨S256x40, .bf16⟩
  | .local _ .vmem, ⟨23, _⟩ => ⟨S40, .f32⟩
  | .local _ .vmem, ⟨24, _⟩ => ⟨S2000x40, .f32⟩
  | .local _ .vmem, ⟨25, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  transposes_S256x128_S128x256_1_0 : S256x128.Transposes [1, 0] S128x256
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  transposes_S40x256_S256x40_1_0 : S40x256.Transposes [1, 0] S256x40
  shapeCasts_S2000x256_S2000x256 : S2000x256.ShapeCasts S2000x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S2000x40_S2000x40 : S2000x40.ShapeCasts S2000x40
  broadcasts_S2000x1_S2000x40 : S2000x1.Broadcasts S2000x40
  inb_S40_S40_0 : ∀ a, (![0] : Fin 1 → Nat) a + S40.size a ≤ S40.size a
  h_S40 : 0 < S40.numel
  shapeCasts_S40_S1x40 : S40.ShapeCasts S1x40
  broadcasts_S1x40_S2000x40 : S1x40.Broadcasts S2000x40
  reduces_S2000x40_S2000 : S2000x40.Reduces [1] S2000
  shapeCasts_S2000_S2000x1 : S2000.ShapeCasts S2000x1
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x40_S2000x40_1_0_0_1_n_n_wf : DotDims.WF S2000x256 S256x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .bf16 = 32 ∨ (Rect.block (s := S256x40) S256x40.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S50000x40.size a
  hwx1_2 : ∀ i : grid1.Coords, EltTy.bits .f32 = 32 ∨ (Rect.block (s := S50000x40) S2000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x40.size a ≤ S256x40.size a
  hwx2_3 : ∀ i : grid2.Coords, EltTy.bits .bf16 = 32 ∨ (Rect.block (s := S256x40) S256x40.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S40.size a ≤ S40.size a
  hwx2_4 : ∀ i : grid2.Coords, EltTy.bits .f32 = 32 ∨ (Rect.block (s := S40) S40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x40.size a ≤ S50000x40.size a
  hwx2_5 : ∀ i : grid2.Coords, EltTy.bits .f32 = 32 ∨ (Rect.block (s := S50000x40) S2000x40.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42) S256x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S40x256 : Shape := ⟨2, ![40, 256]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S800000x256 : Shape := ⟨2, ![800000, 256]⟩
abbrev S256x40 : Shape := ⟨2, ![256, 40]⟩
abbrev S50000x40 : Shape := ⟨2, ![50000, 40]⟩
abbrev S1x40 : Shape := ⟨2, ![1, 40]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S40x256, .f32⟩
  | .hbm, ⟨6, _⟩ => ⟨S40, .f32⟩
  | .hbm, ⟨7, _⟩ => ⟨S40x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S50000x256, .f32⟩
  | .hbm, ⟨59, _⟩ => ⟨S800000x1, .i32⟩
  | .hbm, ⟨60, _⟩ => ⟨S50000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x40, .f32⟩
  | .hbm, ⟨74, _⟩ => ⟨S50000x40, .f32⟩
  | .hbm, ⟨75, _⟩ => ⟨S1x40, .f32⟩
  | .hbm, ⟨76, _⟩ => ⟨S50000x40, .f32⟩
  | .hbm, ⟨77, _⟩ => ⟨S50000x40, .f32⟩
  | .hbm, ⟨78, _⟩ => ⟨S256x40, .f32⟩
  | .hbm, ⟨79, _⟩ => ⟨S50000x40, .f32⟩
  | .hbm, ⟨80, _⟩ => ⟨S50000x40, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S50000x1, .f32⟩
  | .hbm, ⟨87, _⟩ => ⟨S50000x40, .f32⟩
  | .hbm, ⟨88, _⟩ => ⟨S50000x40, .f32⟩
  | .hbm, ⟨89, _⟩ => ⟨S50000x40, .f32⟩
  | .hbm, ⟨90, _⟩ => ⟨S_, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x40, .f32⟩
  | .hbm, ⟨95, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_call1_cst_0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_cst_1 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_call1_v10 : Ref sig .tc := ⟨.hbm, 94, rfl⟩
abbrev main_v59 : Ref sig .tc := ⟨.hbm, 95, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S40x256_S256x40_1_0 : S40x256.Transposes [1, 0] S256x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf

class Facts : Prop extends Facts₀ where

variable [Facts]
-- ==== Proof.Spec.lean ====
import Idealize.ShloMosaic.PureOps.Ideal
import Idealize.ShloMosaic.Lib.ValueIdx

/-! # What the two programs compute, entry by entry

A two-layer neighbourhood-averaging network over 50000 nodes. Fix, for every node `i`, the degree `c i` (never zero)
and a neighbour sum `S` of a feature table. Layer 1 is `h = max ((S₁/c)·Wl₁ᵀ + b₁ + x·Wr₁ᵀ, 0)`; layer 2 is
`(S₂/c)·Wl₂ᵀ + b₂ + h·Wr₂ᵀ` followed by a row-wise log-softmax over the 40 classes, `S₂` the neighbour sum of `h`.

The REFERENCE forms (`hiddenR`, `logitR`) divide the summed rows by the degree and then multiply by the weights. The KERNEL
forms (`hidden`, `proj`, `logit`) multiply by the reciprocal degree `inv`, and in layer 2 multiply `h` by `Wl₂ᵀ` FIRST
(`proj`), sum the 40-wide products over the neighbours, and scale by `inv` last. Every function is given on explicit
coordinates (`…E`) and as an array. -/

open scoped BigOperators

noncomputable section

namespace Cert.Spec

open Idealize.ShloMosaic Idealize.ShloMosaic.ValueIdx

/-- A rank-2 array of extended reals. -/
abbrev Arr2 (n0 n1 : Nat) : Type := (⟨2, ![n0, n1]⟩ : Shape).Idx → EReal
/-- A rank-1 array of extended reals. -/
abbrev Arr1 (n : Nat) : Type := (⟨1, ![n]⟩ : Shape).Idx → EReal

/-! ## Layer 1 -/

/-- Layer 1 as the kernel computes it: the summed neighbour features scaled by the reciprocal degree, times the
    left weights, plus the bias, plus the node's own features times the right weights, cut at zero. -/
def hiddenE (S1 : Arr2 50000 128) (inv : Arr2 50000 1) (X : Arr2 50000 128) (WlT : Arr2 128 256) (bl : Arr1 256)
    (WrT : Arr2 128 256) (i : Fin 50000) (j : Fin 256) : EReal :=
  max (((∑ k : Fin 128, (S1 (ix2 i k) * inv (ix2 i (0 : Fin 1))) * WlT (ix2 k j)) + bl (ix1 j))
    + ∑ k : Fin 128, X (ix2 i k) * WrT (ix2 k j)) 0

def hidden (S1 : Arr2 50000 128) (inv : Arr2 50000 1) (X : Arr2 50000 128) (WlT : Arr2 128 256) (bl : Arr1 256)
    (WrT : Arr2 128 256) : Arr2 50000 256 :=
  fun y => hiddenE S1 inv X WlT bl WrT (y 0) (y 1)

/-- Layer 1 read at an index whose coordinates are known. -/
theorem hidden_at (S1 : Arr2 50000 128) (inv : Arr2 50000 1) (X : Arr2 50000 128) (WlT : Arr2 128 256) (bl : Arr1 256)
    (WrT : Arr2 128 256) (y : (⟨2, ![50000, 256]⟩ : Shape).Idx) (i : Fin 50000) (j : Fin 256)
    (h0 : (y 0).val = i.val) (h1 : (y 1).val = j.val) : hidden S1 inv X WlT bl WrT y = hiddenE S1 inv X WlT bl WrT i j := by
  have e : y = ix2 i j := funext fun a => Fin.ext (by
    match a with
    | ⟨0, _⟩ => exact h0
    | ⟨1, _⟩ => exact h1)
  subst e; rfl

/-- Layer 1 as the reference computes it: the summed neighbour features DIVIDED by the degree. -/
def hiddenRE (S1 : Arr2 50000 128) (c : Arr1 50000) (X : Arr2 50000 128) (WlT : Arr2 128 256) (bl : Arr1 256)
    (WrT : Arr2 128 256) (i : Fin 50000) (j : Fin 256) : EReal :=
  max (((∑ k : Fin 128, Ideal.div (S1 (ix2 i k)) (c (ix1 i)) * WlT (ix2 k j)) + bl (ix1 j))
    + ∑ k : Fin 128, X (ix2 i k) * WrT (ix2 k j)) 0

def hiddenR (S1 : Arr2 50000 128) (c : Arr1 50000) (X : Arr2 50000 128) (WlT : Arr2 128 256) (bl : Arr1 256)
    (WrT : Arr2 128 256) : Arr2 50000 256 :=
  fun y => hiddenRE S1 c X WlT bl WrT (y 0) (y 1)

/-! ## Layer 2 -/

/-- The kernel's early projection of the hidden rows onto the 40 classes. -/
def projE (H : Arr2 50000 256) (W : Arr2 256 40) (i : Fin 50000) (j : Fin 40) : EReal :=
  ∑ k : Fin 256, H (ix2 i k) * W (ix2 k j)

def proj (H : Arr2 50000 256) (W : Arr2 256 40) : Arr2 50000 40 := fun y => projE H W (y 0) (y 1)

/-- The projection read at an index whose coordinates are known. -/
theorem proj_at (H : Arr2 50000 256) (W : Arr2 256 40) (y : (⟨2, ![50000, 40]⟩ : Shape).Idx) (i : Fin 50000) (j : Fin 40)
    (h0 : (y 0).val = i.val) (h1 : (y 1).val = j.val) : proj H W y = projE H W i j := by
  have e : y = ix2 i j := funext fun a => Fin.ext (by
    match a with
    | ⟨0, _⟩ => exact h0
    | ⟨1, _⟩ => exact h1)
  subst e; rfl

/-- The kernel's class scores: the summed projections scaled by the reciprocal degree, plus the bias, plus the
    node's own hidden row times the right weights. -/
def logitE (A2 : Arr2 50000 40) (inv : Arr2 50000 1) (H : Arr2 50000 256) (WrT : Arr2 256 40) (bl : Arr1 40)
    (i : Fin 50000) (j : Fin 40) : EReal :=
  (A2 (ix2 i j) * inv (ix2 i (0 : Fin 1)) + bl (ix1 j)) + ∑ k : Fin 256, H (ix2 i k) * WrT (ix2 k j)

/-- The reference's class scores: the summed hidden rows divided by the degree, times the left weights. -/
def logitRE (S2 : Arr2 50000 256) (c : Arr1 50000) (H : Arr2 50000 256) (WlT : Arr2 256 40) (bl : Arr1 40)
    (WrT : Arr2 256 40) (i : Fin 50000) (j : Fin 40) : EReal :=
  ((∑ k : Fin 256, Ideal.div (S2 (ix2 i k)) (c (ix1 i)) * WlT (ix2 k j)) + bl (ix1 j))
    + ∑ k : Fin 256, H (ix2 i k) * WrT (ix2 k j)

/-! ## The log-softmax of a row of 40 scores -/

/-- A row's maximum, folded from minus infinity. -/
def rowMax (L : Fin 40 → EReal) : EReal :=
  (Finset.univ : Finset (Fin 40)).fold max (Ideal.ofBits .f32 0xFF800000#32) L

/-- The log-softmax of a row at class `j`: the score less the row's maximum, less the logarithm of the sum of the
    exponentials of the shifted scores. -/
def lsmE (L : Fin 40 → EReal) (j : Fin 40) : EReal :=
  (L j - rowMax L) - Ideal.log (∑ j' : Fin 40, Ideal.exp (L j' - rowMax L))

/-- The kernel's result. -/
def out (A2 : Arr2 50000 40) (inv : Arr2 50000 1) (H : Arr2 50000 256) (WrT : Arr2 256 40) (bl : Arr1 40) :
    Arr2 50000 40 :=
  fun y => lsmE (fun j => logitE A2 inv H WrT bl (y 0) j) (y 1)

/-- The kernel's result read at an index whose coordinates are known. -/
theorem out_at (A2 : Arr2 50000 40) (inv : Arr2 50000 1) (H : Arr2 50000 256) (WrT : Arr2 256 40) (bl : Arr1 40)
    (y : (⟨2, ![50000, 40]⟩ : Shape).Idx) (i : Fin 50000) (j : Fin 40)
    (h0 : (y 0).val = i.val) (h1 : (y 1).val = j.val) :
    out A2 inv H WrT bl y = lsmE (fun j' => logitE A2 inv H WrT bl i j') j := by
  have e : y = ix2 i j := funext fun a => Fin.ext (by
    match a with
    | ⟨0, _⟩ => exact h0
    | ⟨1, _⟩ => exact h1)
  subst e; rfl

/-- The reference's result. -/
def outR (S2 : Arr2 50000 256) (c : Arr1 50000) (H : Arr2 50000 256) (WlT : Arr2 256 40) (bl : Arr1 40)
    (WrT : Arr2 256 40) : Arr2 50000 40 :=
  fun y => lsmE (fun j => logitRE S2 c H WlT bl WrT (y 0) j) (y 1)

end Cert.Spec

end
-- ==== Proof.KernelDots.lean ====
import proofs.«414649_j38156489457766_3_alg».proof.Proof.Gen.KernelIdeal
import Idealize.ShloMosaic.Lib.ValueIdx
import Idealize.ShloMosaic.PureOps.Ideal.Laws

/-! # The kernels' matrix products, read at an entry

Each of the three kernels multiplies a block of 2000 rows by a resident weight matrix into a zero accumulator. Over the
extended reals such a product at `(p, q)` is the plain sum over the contracted axis of row `p` times column `q`: the
contraction index of the dimension numbers is its one coordinate, and the operand indices are `(p, k)` and `(k, q)`. -/

open scoped BigOperators

noncomputable section

namespace Cert.KernelIdeal.Dots

open Cert.KernelIdeal Cert.KernelIdeal.Gen Idealize.ShloMosaic Idealize.ShloMosaic.ValueIdx

/-! ### `[2000, 128] × [128, 256]` -/

theorem lhs_d128_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_d128_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_d128_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_d128_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The matrix unit's product into a zero accumulator, at `(p, q)`: row `p` of the left operand against column `q` of
    the right one. -/
theorem matmul_d128_apply {φ₁ φ₂ : FTy} (x : FVec Ideal S2000x128 φ₁) (w : FVec Ideal S128x256 φ₂) (p : Fin 2000) (q : Fin 256) :
    matmul dot_S2000x128_S128x256_S2000x256_1_0_0_1_n_n none x w (constant S2000x256 .f32 0x00000000#32) (ix2 p q)
      = ∑ k : Fin 128, x (ix2 p k) * w (ix2 k q) := by
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_d128_0 _ _
    | ⟨1, _⟩ => exact (lhs_d128_1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_d128_0 _ _).trans hk
    | ⟨1, _⟩ => exact rhs_d128_1 _ _)
  rw [el, er]

/-! ### `[2000, 256] × [256, 40]` -/

theorem lhs_d256_0 (i : S2000x40.Idx) (q : dot_S2000x256_S256x40_S2000x40_1_0_0_1_n_n.contr.Idx) :
    (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
theorem lhs_d256_1 (i : S2000x40.Idx) (q : dot_S2000x256_S256x40_S2000x40_1_0_0_1_n_n.contr.Idx) :
    (dot_S2000x256_S256x40_S2000x40_1_0_0_1_n_n.lhsIdx i q 1).val = (q ⟨0, by decide⟩).val :=
  dot_S2000x256_S256x40_S2000x40_1_0_0_1_n_n.lhsIdx_val_of_single rfl i q
theorem rhs_d256_0 (i : S2000x40.Idx) (q : dot_S2000x256_S256x40_S2000x40_1_0_0_1_n_n.contr.Idx) :
    (dot_S2000x256_S256x40_S2000x40_1_0_0_1_n_n.rhsIdx i q 0).val = (q ⟨0, by decide⟩).val :=
  dot_S2000x256_S256x40_S2000x40_1_0_0_1_n_n.rhsIdx_val_of_single rfl i q
theorem rhs_d256_1 (i : S2000x40.Idx) (q : dot_S2000x256_S256x40_S2000x40_1_0_0_1_n_n.contr.Idx) :
    (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- The matrix unit's product into a zero accumulator, at `(p, q)`: row `p` of the left operand against column `q` of
    the right one. -/
theorem matmul_d256_apply {φ₁ φ₂ : FTy} (x : FVec Ideal S2000x256 φ₁) (w : FVec Ideal S256x40 φ₂) (p : Fin 2000) (q : Fin 40) :
    matmul dot_S2000x256_S256x40_S2000x40_1_0_0_1_n_n none x w (constant S2000x40 .f32 0x00000000#32) (ix2 p q)
      = ∑ k : Fin 256, x (ix2 p k) * w (ix2 k q) := by
  simp only [matmul]
  rw [Ideal.matmul_constant_zero_apply, ← Equiv.sum_comp (ValueIdx.contrEquiv1 dot_S2000x256_S256x40_S2000x40_1_0_0_1_n_n 256 rfl rfl).symm]
  refine Finset.sum_congr rfl fun k _ => ?_
  have hk := ValueIdx.contrEquiv1_symm_val dot_S2000x256_S256x40_S2000x40_1_0_0_1_n_n 256 rfl rfl k
  have el : dot_S2000x256_S256x40_S2000x40_1_0_0_1_n_n.lhsIdx (ix2 p q) ((ValueIdx.contrEquiv1 dot_S2000x256_S256x40_S2000x40_1_0_0_1_n_n 256 rfl rfl).symm k) = ix2 p k := funext fun a => Fin.ext (by
    match a with
    | ⟨0, _⟩ => exact lhs_d256_0 _ _
    | ⟨1, _⟩ => exact (lhs_d256_1 _ _).trans hk)
  have er : dot_S2000x256_S256x40_S2000x40_1_0_0_1_n_n.rhsIdx (ix2 p q) ((ValueIdx.contrEquiv1 dot_S2000x256_S256x40_S2000x40_1_0_0_1_n_n 256 rfl rfl).symm k) = ix2 k q := funext fun a => Fin.ext (by
    match a with
    | ⟨0, _⟩ => exact (rhs_d256_0 _ _).trans hk
    | ⟨1, _⟩ => exact rhs_d256_1 _ _)
  rw [el, er]

end Cert.KernelIdeal.Dots

end
-- ==== Proof.Region0.lean ====
import proofs.«414649_j38156489457766_3_alg».proof.Proof.Gen.KernelIdeal.Frame
import proofs.«414649_j38156489457766_3_alg».proof.Proof.Spec
import proofs.«414649_j38156489457766_3_alg».proof.Proof.KernelDots
import Idealize.ShloMosaic.Lib.Pipeline.Value
import Idealize.ShloMosaic.Lib.ValueLayout

/-! # The layer-1 kernel's array

The first kernel works on blocks of 2000 nodes. Point `t` of its grid of 25 reads rows `2000 t … 2000 t + 1999` of the
summed neighbour features, of the reciprocal-degree column and of the nodes' own features, together with the two resident
`[128, 256]` weight matrices and the `[256]` bias, and writes the same rows of the result. At `(p, q)` of the block it
stores: row `p` of the summed features, each entry scaled by the row's reciprocal degree, against column `q` of the left
weights; plus the bias at `q`; plus row `p` of the own features against column `q` of the right weights; the whole cut
at zero. The 25 row blocks tile the 50000 rows: so the result array ends holding `Spec.hidden` of the six arrays the
kernel was launched on. -/

set_option maxRecDepth 16384

open scoped BigOperators

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- A column broadcast along its unit axis reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored value at `(p, q)` of the block: row `p` of the summed features, scaled by the row's reciprocal degree,
    against column `q` of the left weights; plus the bias at `q`; plus row `p` of the node's own features against
    column `q` of the right weights; cut at zero (the changes of float format are the identity on the extended reals). -/
theorem pay_apply (x0 : Vec Ideal S2000x128 .f32) (x1 : Vec Ideal S2000x1 .f32) (x2 : Vec Ideal S2000x128 .f32)
    (x3 : Vec Ideal S128x256 .bf16) (x4 : Vec Ideal S256 .f32) (x5 : Vec Ideal S128x256 .bf16) (p : Fin 2000) (q : Fin 256) :
    k0_pay1 x0 x1 x2 x3 x4 x5 (ix2 p q)
      = max (((∑ k : Fin 128, (x0 (ix2 p k) * x1 (ix2 p (0 : Fin 1))) * x3 (ix2 k q)) + x4 (ix1 q))
          + ∑ k : Fin 128, x2 (ix2 p k) * x5 (ix2 k q)) 0 := by
  unfold k0_pay1
  refine (maximumf_apply _ _ (ix2 p q)).trans ?_
  refine congrArg₂ max ?_ ?_
  · refine (addf_apply _ _ (ix2 p q)).trans ?_
    refine congrArg₂ (· + ·) ?_ ?_
    · refine (addf_apply _ _ (ix2 p q)).trans ?_
      refine congrArg₂ (· + ·) ?_ ?_
      · refine (Dots.matmul_d128_apply _ _ p q).trans (Finset.sum_congr rfl fun k _ => ?_)
        show shapeCast S2000x128 x0 _ (ix2 p k) * broadcastTo S2000x128 (shapeCast S2000x1 x1 _) _ (ix2 p k)
          * shapeCast S128x256 x3 _ (ix2 k q) = _
        rw [shapeCast_self, shapeCast_self, shapeCast_self, broadcastTo_a1_ab_apply]
      · exact (broadcastTo_1b_ab_apply _ _ p q).trans (shapeCast_a_1a_apply x4 _ 0 q)
    · refine (Dots.matmul_d128_apply _ _ p q).trans (Finset.sum_congr rfl fun k _ => ?_)
      show x2 (ix2 p k) * shapeCast S128x256 x5 _ (ix2 k q) = _
      rw [shapeCast_self]
  · exact Ideal.ofBits_zero_f32

/-- The printed index maps over the grid: the three row-blocked inputs and the output sit at block row `t`, the two
    weight matrices and the bias at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt_N (t : Fin cfg0.N) : t.val < 25 := lt_of_lt_of_eq t.isLt N_0

/-- The block of summed neighbour features at point `t` is rows `2000 t …` of that array. -/
theorem iblk_s (c : Dev nD) (t : Fin cfg0.N) (p : Fin 2000) (k : Fin 128) (hlt : t.val * 2000 + p.val < 50000) :
    (iblk0 V c 0 t : Vec Ideal S2000x128 .f32) (ix2 p k)
      = (V c main_v22 : S50000x128.Idx → EReal) (ix2 ⟨t.val * 2000 + p.val, hlt⟩ k) := by
  obtain ⟨e0, e1, -⟩ := idx_facts t
  unfold iblk0
  rw [View.read_apply]
  show V c main_v22 _ = V c main_v22 _
  congr 1
  funext a; apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The block of the reciprocal-degree column at point `t` is rows `2000 t …` of the column. -/
theorem iblk_inv (c : Dev nD) (t : Fin cfg0.N) (p : Fin 2000) (hlt : t.val * 2000 + p.val < 50000) :
    (iblk0 V c 1 t : Vec Ideal S2000x1 .f32) (ix2 p (0 : Fin 1))
      = (V c main_v12 : S50000x1.Idx → EReal) (ix2 ⟨t.val * 2000 + p.val, hlt⟩ (0 : Fin 1)) := by
  obtain ⟨-, -, e2, e3, -⟩ := idx_facts t
  unfold iblk0
  rw [View.read_apply]
  show V c main_v12 _ = V c main_v12 _
  congr 1
  funext a; apply Fin.ext
  match a with
  | ⟨0, _⟩ => show win0_1.index t (0 : Fin 2) * 2000 + 1 * p.val = t.val * 2000 + p.val; rw [e2]; omega
  | ⟨1, _⟩ => show win0_1.index t (1 : Fin 2) * 1 + 1 * 0 = 0; rw [e3]

/-- The block of the nodes' own features at point `t` is rows `2000 t …` of the feature array. -/
theorem iblk_x (c : Dev nD) (t : Fin cfg0.N) (p : Fin 2000) (k : Fin 128) (hlt : t.val * 2000 + p.val < 50000) :
    (iblk0 V c 2 t : Vec Ideal S2000x128 .f32) (ix2 p k)
      = (V c main_arg0 : S50000x128.Idx → EReal) (ix2 ⟨t.val * 2000 + p.val, hlt⟩ k) := by
  obtain ⟨-, -, -, -, e4, e5, -⟩ := idx_facts t
  unfold iblk0
  rw [View.read_apply]
  show V c main_arg0 _ = V c main_arg0 _
  congr 1
  funext a; apply Fin.ext
  match a with
  | ⟨0, _⟩ => show win0_2.index t (0 : Fin 2) * 2000 + 1 * p.val = t.val * 2000 + p.val; rw [e4]; omega
  | ⟨1, _⟩ => show win0_2.index t (1 : Fin 2) * 128 + 1 * k.val = k.val; rw [e5]; omega

/-- The left-weight block at every point is the whole left-weight array. -/
theorem iblk_wl (c : Dev nD) (t : Fin cfg0.N) (k : Fin 128) (q : Fin 256) :
    (iblk0 V c 3 t : Vec Ideal S128x256 .bf16) (ix2 k q) = (V c main_v24 : S128x256.Idx → EReal) (ix2 k q) := by
  obtain ⟨-, -, -, -, -, -, e6, e7, -⟩ := idx_facts t
  unfold iblk0
  rw [View.read_apply]
  show V c main_v24 _ = V c main_v24 _
  congr 1
  funext a; apply Fin.ext
  match a with
  | ⟨0, _⟩ => show win0_3.index t (0 : Fin 2) * 128 + 1 * k.val = k.val; rw [e6]; omega
  | ⟨1, _⟩ => show win0_3.index t (1 : Fin 2) * 256 + 1 * q.val = q.val; rw [e7]; omega

/-- The bias block at every point is the whole bias vector. -/
theorem iblk_b (c : Dev nD) (t : Fin cfg0.N) (q : Fin 256) :
    (iblk0 V c 4 t : Vec Ideal S256 .f32) (ix1 q) = (V c main_arg3 : S256.Idx → EReal) (ix1 q) := by
  obtain ⟨-, -, -, -, -, -, -, -, e8, -⟩ := idx_facts t
  unfold iblk0
  rw [View.read_apply]
  show V c main_arg3 _ = V c main_arg3 _
  congr 1
  funext a; apply Fin.ext
  match a with
  | ⟨0, _⟩ => show win0_4.index t (0 : Fin 1) * 256 + 1 * q.val = q.val; rw [e8]; omega

/-- The right-weight block at every point is the whole right-weight array. -/
theorem iblk_wr (c : Dev nD) (t : Fin cfg0.N) (k : Fin 128) (q : Fin 256) :
    (iblk0 V c 5 t : Vec Ideal S128x256 .bf16) (ix2 k q) = (V c main_v26 : S128x256.Idx → EReal) (ix2 k q) := by
  obtain ⟨-, -, -, -, -, -, -, -, -, e9, e10, -⟩ := idx_facts t
  unfold iblk0
  rw [View.read_apply]
  show V c main_v26 _ = V c main_v26 _
  congr 1
  funext a; apply Fin.ext
  match a with
  | ⟨0, _⟩ => show win0_5.index t (0 : Fin 2) * 128 + 1 * k.val = k.val; rw [e9]; omega
  | ⟨1, _⟩ => show win0_5.index t (1 : Fin 2) * 256 + 1 * q.val = q.val; rw [e10]; omega

/-- WHAT POINT `t` WRITES BACK is block `t` of layer 1 of the six arrays. -/
theorem flushed_eq (c : Dev nD) (t : Fin cfg0.N) :
    (dat0 V c).flushed 6 t
      = ((cfg0.win 6).blk t).view.read (Elt Ideal)
          (Spec.hidden (V c main_v22) (V c main_v12) (V c main_arg0) (V c main_v24) (V c main_arg3) (V c main_v26)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x256) hz, View.ld_unit_zero (S := S256) hz1]
  have ht := lt_N t
  obtain ⟨-, -, -, -, -, -, -, -, -, -, -, e11, e12⟩ := idx_facts t
  funext y
  obtain ⟨p, q, rfl⟩ : ∃ (p : Fin 2000) (q : Fin 256), y = ix2 p q := ⟨y 0, y 1, eq_ix2 y⟩
  rw [View.read_apply]
  show k0_pay1 (iblk0 V c 0 t) (iblk0 V c 1 t) (iblk0 V c 2 t) (iblk0 V c 3 t) (iblk0 V c 4 t) (iblk0 V c 5 t) (ix2 p q) = _
  refine (pay_apply _ _ _ _ _ _ p q).trans ?_
  have hlt : t.val * 2000 + p.val < 50000 := by have := p.isLt; omega
  rw [Spec.hidden_at _ _ _ _ _ _ _ ⟨t.val * 2000 + p.val, hlt⟩ q
    (by show win0_6.index t (0 : Fin 2) * 2000 + 1 * p.val = t.val * 2000 + p.val; rw [e11]; omega)
    (by show win0_6.index t (1 : Fin 2) * 256 + 1 * q.val = q.val; rw [e12]; omega)]
  unfold Spec.hiddenE
  refine congrArg₂ max (congrArg₂ (· + ·) (congrArg₂ (· + ·) (Finset.sum_congr rfl fun k _ => ?_) ?_)
    (Finset.sum_congr rfl fun k _ => ?_)) rfl
  · rw [iblk_s V c t p k hlt, iblk_inv V c t p hlt, iblk_wl V c t k q]
  · exact iblk_b V c t q
  · rw [iblk_x V c t p k hlt, iblk_wr V c t k q]

/-- An index of the result array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v27).slice (win0_6.rect t)).set ↔ _
  rw [View.set_slice_whole, Rect.mem_set_unit]
  exact Iff.rfl

/-- Row `r` of the result is in the block of point `r / 2000`. -/
theorem cover (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_6 _, ?_⟩
  obtain ⟨-, -, -, -, -, -, -, -, -, -, -, e11, e12⟩ := idx_facts ⟨(i 0).val / 2000, by rw [hN]; omega⟩
  rw [mem_blk]
  intro a
  match a with
  | ⟨0, _⟩ =>
    show win0_6.index _ (0 : Fin 2) * 2000 ≤ (i 0).val ∧ (i 0).val < win0_6.index _ (0 : Fin 2) * 2000 + 2000
    rw [e11]; show (i 0).val / 2000 * 2000 ≤ (i 0).val ∧ (i 0).val < (i 0).val / 2000 * 2000 + 2000; omega
  | ⟨1, _⟩ =>
    show win0_6.index _ (1 : Fin 2) * 256 ≤ (i 1).val ∧ (i 1).val < win0_6.index _ (1 : Fin 2) * 256 + 256
    rw [e12]; omega

/-- THE RESULT ARRAY of the layer-1 kernel, launched from any contents `V`. -/
theorem value (c : Dev nD) : (dat0 V c).arrAt 6 cfg0.N
    = Spec.hidden (V c main_v22) (V c main_v12) (V c main_arg0) (V c main_v24) (V c main_arg3) (V c main_v26) :=
  (dat0 V c).arrAt_eq_of_cover 6
    (Spec.hidden (V c main_v22) (V c main_v12) (V c main_arg0) (V c main_v24) (V c main_arg3) (V c main_v26))
    (fun t _ => flushed_eq V c t) cover

end Cert.KernelIdeal.Region0

end
-- ==== Proof.Region1.lean ====
import proofs.«414649_j38156489457766_3_alg».proof.Proof.Gen.KernelIdeal.Frame
import proofs.«414649_j38156489457766_3_alg».proof.Proof.Spec
import proofs.«414649_j38156489457766_3_alg».proof.Proof.KernelDots
import Idealize.ShloMosaic.Lib.Pipeline.Value

/-! # The projection kernel's array

The second kernel multiplies each block of 2000 hidden rows by the resident `[256, 40]` weight matrix. Point `t` of its
grid of 25 reads rows `2000 t … 2000 t + 1999` of the hidden array and writes the same rows of the result, and the 25
row blocks tile the 50000 rows: so the result array ends holding, at `(i, j)`, the sum over `k` of hidden `(i, k)` times
weight `(k, j)` — `Spec.proj` of the two arrays the kernel was launched on. -/

set_option maxRecDepth 16384

open scoped BigOperators

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The stored value at `(p, q)` of the block: row `p` of the hidden block against column `q` of the weights (the
    change of float format is the identity on the extended reals). -/
theorem pay_apply (x0 : Vec Ideal S2000x256 .f32) (x1 : Vec Ideal S256x40 .bf16) (p : Fin 2000) (q : Fin 40) :
    k1_pay1 x0 x1 (ix2 p q) = ∑ k : Fin 256, x0 (ix2 p k) * x1 (ix2 k q) := by
  unfold k1_pay1
  refine (Dots.matmul_d256_apply _ _ p q).trans (Finset.sum_congr rfl fun k _ => ?_)
  show shapeCast S2000x256 x0 _ (ix2 p k) * shapeCast S256x40 x1 _ (ix2 k q) = _
  rw [shapeCast_self, shapeCast_self]

/-- The printed index maps over the grid: the row-blocked windows sit at block row `t`, the weights at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_N (t : Fin cfg1.N) : t.val < 25 := by
  have h := t.isLt
  have hN : cfg1.N = 25 := N_1
  omega

/-- The hidden block at point `t` is rows `2000 t …` of the hidden array. -/
theorem iblk_h (c : Dev nD) (t : Fin cfg1.N) (p : Fin 2000) (k : Fin 256) (hlt : t.val * 2000 + p.val < 50000) :
    (iblk1 V c 0 t : Vec Ideal S2000x256 .f32) (ix2 p k)
      = (V c main_v27 : S50000x256.Idx → EReal) (ix2 ⟨t.val * 2000 + p.val, hlt⟩ k) := by
  obtain ⟨e0, e1, -⟩ := idx_facts t
  unfold iblk1
  rw [View.read_apply]
  show V c main_v27 _ = V c main_v27 _
  congr 1
  funext a; apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

/-- The weight block at every point is the whole weight array. -/
theorem iblk_w (c : Dev nD) (t : Fin cfg1.N) (k : Fin 256) (q : Fin 40) :
    (iblk1 V c 1 t : Vec Ideal S256x40 .bf16) (ix2 k q) = (V c main_v29 : S256x40.Idx → EReal) (ix2 k q) := by
  obtain ⟨-, -, e2, e3, -⟩ := idx_facts t
  unfold iblk1
  rw [View.read_apply]
  show V c main_v29 _ = V c main_v29 _
  congr 1
  funext a; apply Fin.ext
  match a with
  | ⟨0, _⟩ => show win1_1.index t (0 : Fin 2) * 256 + 1 * k.val = k.val; rw [e2]; omega
  | ⟨1, _⟩ => show win1_1.index t (1 : Fin 2) * 40 + 1 * q.val = q.val; rw [e3]; omega

/-- WHAT POINT `t` WRITES BACK is block `t` of the projection of the two arrays. -/
theorem flushed_eq (c : Dev nD) (t : Fin cfg1.N) :
    (dat1 V c).flushed 2 t
      = ((cfg1.win 2).blk t).view.read (Elt Ideal) (Spec.proj (V c main_v27) (V c main_v29)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x40) hz]
  have ht := lt_N t
  obtain ⟨-, -, -, -, e4, e5⟩ := idx_facts t
  funext y
  obtain ⟨p, q, rfl⟩ : ∃ (p : Fin 2000) (q : Fin 40), y = ix2 p q := ⟨y 0, y 1, eq_ix2 y⟩
  rw [View.read_apply]
  show k1_pay1 (iblk1 V c 0 t) (iblk1 V c 1 t) (ix2 p q) = _
  refine (pay_apply _ _ p q).trans ?_
  have hlt : t.val * 2000 + p.val < 50000 := by have := p.isLt; omega
  rw [Spec.proj_at _ _ _ ⟨t.val * 2000 + p.val, hlt⟩ q
    (by show win1_2.index t (0 : Fin 2) * 2000 + 1 * p.val = t.val * 2000 + p.val; rw [e4]; omega)
    (by show win1_2.index t (1 : Fin 2) * 40 + 1 * q.val = q.val; rw [e5]; omega)]
  unfold Spec.projE
  refine Finset.sum_congr rfl fun k _ => ?_
  rw [iblk_h V c t p k hlt, iblk_w V c t k q]

/-- An index of the result array is in point `t`'s block iff each coordinate is in the block's range on its axis. -/
theorem mem_blk (t : Fin cfg1.N) (i : S50000x40.Idx) :
    i ∈ ((cfg1.win 2).blk t).view.set ↔ ∀ a : Fin 2, win1_2.index t a * S2000x40.size a ≤ (i a).val
      ∧ (i a).val < win1_2.index t a * S2000x40.size a + S2000x40.size a := by
  show i ∈ ((View.whole main_v30).slice (win1_2.rect t)).set ↔ _
  rw [View.set_slice_whole, Rect.mem_set_unit]
  exact Iff.rfl

/-- Row `r` of the result is in the block of point `r / 2000`. -/
theorem cover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  have hN : cfg1.N = 25 := N_1
  refine ⟨⟨(i 0).val / 2000, by rw [hN]; omega⟩, flush1_2 _, ?_⟩
  obtain ⟨-, -, -, -, e4, e5⟩ := idx_facts ⟨(i 0).val / 2000, by rw [hN]; omega⟩
  rw [mem_blk]
  intro a
  match a with
  | ⟨0, _⟩ =>
    show win1_2.index _ (0 : Fin 2) * 2000 ≤ (i 0).val ∧ (i 0).val < win1_2.index _ (0 : Fin 2) * 2000 + 2000
    rw [e4]; show (i 0).val / 2000 * 2000 ≤ (i 0).val ∧ (i 0).val < (i 0).val / 2000 * 2000 + 2000; omega
  | ⟨1, _⟩ =>
    show win1_2.index _ (1 : Fin 2) * 40 ≤ (i 1).val ∧ (i 1).val < win1_2.index _ (1 : Fin 2) * 40 + 40
    rw [e5]; omega

/-- THE RESULT ARRAY of the projection kernel, launched from any contents `V`. -/
theorem value (c : Dev nD) : (dat1 V c).arrAt 2 cfg1.N = Spec.proj (V c main_v27) (V c main_v29) :=
  (dat1 V c).arrAt_eq_of_cover 2 (Spec.proj (V c main_v27) (V c main_v29)) (fun t _ => flushed_eq V c t) cover

end Cert.KernelIdeal.Region1

end
-- ==== Proof.Region2.lean ====
import proofs.«414649_j38156489457766_3_alg».proof.Proof.Gen.KernelIdeal.Frame
import proofs.«414649_j38156489457766_3_alg».proof.Proof.Spec
import proofs.«414649_j38156489457766_3_alg».proof.Proof.KernelDots
import Idealize.ShloMosaic.Lib.Pipeline.Value

/-! # The epilogue kernel's array

The third kernel finishes layer 2 on each block of 2000 rows. At row `p` of its block it forms the 40 class scores —
the summed projection scaled by the row's reciprocal degree, plus the bias, plus the hidden row times the resident
`[256, 40]` weights —, takes the row's maximum, subtracts it, and subtracts the logarithm of the sum of the exponentials
of the shifted scores: the log-softmax of the row. Point `t` of its grid of 25 reads rows `2000 t … 2000 t + 1999` of
the three row-blocked arrays and writes the same rows of the result, and the 25 row blocks tile the 50000 rows: so the
result array ends as `Spec.out` of the five arrays the kernel was launched on. -/

set_option maxRecDepth 16384

open scoped BigOperators

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-! ## Layout operations of the body, read at an entry -/

/-- A column `[2000, 1]` spread over 40 columns reads, at `(p, q)`, the column at row `p`. -/
theorem bcol_apply {α : Type} (v : S2000x1.Idx → α) (p : Fin 2000) (q : Fin 40) :
    broadcastTo S2000x40 v broadcasts_S2000x1_S2000x40 (ix2 p q) = v (ix2 p (0 : Fin 1)) := by
  refine broadcastTo_apply v broadcasts_S2000x1_S2000x40 (ix2 p q) (ix2 p (0 : Fin 1)) fun a => ?_
  match a with
  | ⟨0, _⟩ => rfl
  | ⟨1, _⟩ => rfl

/-- A vector of 2000 entries viewed as a column `[2000, 1]` reads, at `(p, 0)`, the vector at `p`. -/
theorem ccol_apply {α : Type} (v : S2000.Idx → α) (p : Fin 2000) :
    shapeCast S2000x1 v shapeCasts_S2000_S2000x1 (ix2 p (0 : Fin 1)) = v (ix1 p) :=
  shapeCast_apply v shapeCasts_S2000_S2000x1 _ _ (by
    rw [Shape.rowMajor_val_two, Shape.rowMajor_val_one]
    show p.val = p.val * 1 + 0
    omega)

/-- A vector of 40 entries viewed as a row `[1, 40]` and spread over 2000 rows reads, at `(p, q)`, the vector at `q`. -/
theorem brow_apply {α : Type} (v : S40.Idx → α) (p : Fin 2000) (q : Fin 40) :
    broadcastTo S2000x40 (shapeCast S1x40 v shapeCasts_S40_S1x40) broadcasts_S1x40_S2000x40 (ix2 p q) = v (ix1 q) := by
  refine (broadcastTo_apply _ broadcasts_S1x40_S2000x40 (ix2 p q) (ix2 (0 : Fin 1) q) fun a => ?_).trans ?_
  · match a with
    | ⟨0, _⟩ => rfl
    | ⟨1, _⟩ => rfl
  · exact shapeCast_apply v shapeCasts_S40_S1x40 _ _ (by
      rw [Shape.rowMajor_val_two, Shape.rowMajor_val_one]
      show q.val = 0 * 40 + q.val
      omega)

/-- The index of row `p` with column `k` put back on the reduced axis is `(p, k)`. -/
theorem lift_eq (p : Fin 2000) (k : Fin 40) : reduces_S2000x40_S2000.lift (ix1 p) k = ix2 p k :=
  funext fun a => Fin.ext (by
    match a with
    | ⟨0, _⟩ => rfl
    | ⟨1, _⟩ => rfl)

/-! ## The two row reductions -/

/-- The row maximum at row `p`: the fold of `max` from minus infinity over the row's 40 entries. -/
theorem rowmax_apply (L : FVec Ideal S2000x40 .f32) (hφ : FKind.Formats .f32)
    (hacc : (0xFF800000#32 : BitVec 32) = FKind.maximumf.neutral .f32 hφ) (p : Fin 2000) :
    multiReduction .maximumf [1] S2000 L 0xFF800000#32 reduces_S2000x40_S2000 hφ hacc (ix1 p)
      = Spec.rowMax (fun j => L (ix2 p j)) := by
  refine (Ideal.multiReduction_maximumf_single L 0xFF800000#32 reduces_S2000x40_S2000 hφ hacc (ix1 p)).trans ?_
  have e : (L ∘ reduces_S2000x40_S2000.lift (ix1 p)) = fun j : Fin 40 => L (ix2 p j) :=
    funext fun j => congrArg L (lift_eq p j)
  exact congrArg (fun f => (Finset.univ : Finset (Fin 40)).fold max (Ideal.ofBits .f32 0xFF800000#32) f) e

/-- The row sum at row `p`: the sum of the row's 40 entries. -/
theorem rowsum_apply (E : FVec Ideal S2000x40 .f32) (hφ : FKind.Formats .f32)
    (hacc : (0x00000000#32 : BitVec 32) = FKind.add.neutral .f32 hφ) (p : Fin 2000) :
    multiReduction .add [1] S2000 E 0x00000000#32 reduces_S2000x40_S2000 hφ hacc (ix1 p)
      = ∑ j : Fin 40, E (ix2 p j) := by
  refine (Ideal.multiReduction_add_single E 0x00000000#32 reduces_S2000x40_S2000 hφ hacc (ix1 p)).trans ?_
  exact Finset.sum_congr rfl fun j _ => congrArg E (lift_eq p j)

/-! ## The body's value at an entry -/

/-- The class scores of row `p` of the blocks. -/
def score (x0 : Vec Ideal S2000x40 .f32) (x1 : Vec Ideal S2000x1 .f32) (x2 : Vec Ideal S2000x256 .f32)
    (xb : Vec Ideal S40 .f32) (xw : Vec Ideal S256x40 .bf16) (p : Fin 2000) (j : Fin 40) : EReal :=
  (x0 (ix2 p j) * x1 (ix2 p (0 : Fin 1)) + xb (ix1 j)) + ∑ k : Fin 256, x2 (ix2 p k) * xw (ix2 k j)

/-- The scores as the body forms them: the scaled projections plus the bias row plus the matrix product. -/
def scoresV (x0 : Vec Ideal S2000x40 .f32) (x1 : Vec Ideal S2000x1 .f32) (x2 : Vec Ideal S2000x256 .f32)
    (xb : Vec Ideal S40 .f32) (xw : Vec Ideal S256x40 .bf16) : FVec Ideal S2000x40 .f32 :=
  addf (addf (mulf (shapeCast S2000x40 x0 shapeCasts_S2000x40_S2000x40)
        (broadcastTo S2000x40 (shapeCast S2000x1 x1 shapeCasts_S2000x1_S2000x1) broadcasts_S2000x1_S2000x40))
      (broadcastTo S2000x40 (shapeCast S1x40 xb shapeCasts_S40_S1x40) broadcasts_S1x40_S2000x40))
    (matmul dot_S2000x256_S256x40_S2000x40_1_0_0_1_n_n none
      (truncf .bf16 (shapeCast S2000x256 x2 shapeCasts_S2000x256_S2000x256) bitsLt_bf16_f32)
      (shapeCast S256x40 xw shapeCasts_S256x40_S256x40 : FVec Ideal S256x40 .bf16)
      (constant (F := Ideal) S2000x40 .f32 0x00000000#32))

/-- The scores at `(p, j)`. -/
theorem scoresV_apply (x0 : Vec Ideal S2000x40 .f32) (x1 : Vec Ideal S2000x1 .f32) (x2 : Vec Ideal S2000x256 .f32)
    (xb : Vec Ideal S40 .f32) (xw : Vec Ideal S256x40 .bf16) (p : Fin 2000) (j : Fin 40) :
    scoresV x0 x1 x2 xb xw (ix2 p j) = score x0 x1 x2 xb xw p j := by
  unfold scoresV score
  show (shapeCast S2000x40 x0 shapeCasts_S2000x40_S2000x40 (ix2 p j)
      * broadcastTo S2000x40 (shapeCast S2000x1 x1 shapeCasts_S2000x1_S2000x1) broadcasts_S2000x1_S2000x40 (ix2 p j)
      + broadcastTo S2000x40 (shapeCast S1x40 xb shapeCasts_S40_S1x40) broadcasts_S1x40_S2000x40 (ix2 p j))
    + matmul dot_S2000x256_S256x40_S2000x40_1_0_0_1_n_n none
      (truncf .bf16 (shapeCast S2000x256 x2 shapeCasts_S2000x256_S2000x256) bitsLt_bf16_f32)
      (shapeCast S256x40 xw shapeCasts_S256x40_S256x40 : FVec Ideal S256x40 .bf16)
      (constant (F := Ideal) S2000x40 .f32 0x00000000#32) (ix2 p j) = _
  rw [bcol_apply, brow_apply, Dots.matmul_d256_apply, shapeCast_self, shapeCast_self]
  refine congrArg (fun s => (x0 (ix2 p j) * x1 (ix2 p (0 : Fin 1)) + xb (ix1 j)) + s) (Finset.sum_congr rfl fun k _ => ?_)
  show shapeCast S2000x256 x2 _ (ix2 p k) * shapeCast S256x40 xw _ (ix2 k j) = _
  rw [shapeCast_self, shapeCast_self]

/-- The row maximum spread back over the block. -/
def maxB (L : FVec Ideal S2000x40 .f32) : FVec Ideal S2000x40 .f32 :=
  broadcastTo S2000x40 (shapeCast S2000x1
    (multiReduction .maximumf [1] S2000 L 0xFF800000#32 reduces_S2000x40_S2000 (.inl rfl) rfl) shapeCasts_S2000_S2000x1)
    broadcasts_S2000x1_S2000x40

theorem maxB_apply (L : FVec Ideal S2000x40 .f32) (p : Fin 2000) (j : Fin 40) :
    maxB L (ix2 p j) = Spec.rowMax (fun j' => L (ix2 p j')) :=
  (bcol_apply _ p j).trans ((ccol_apply _ p).trans (rowmax_apply L _ _ p))

/-- The logarithm of the row sum spread back over the block. -/
def lsumB (E : FVec Ideal S2000x40 .f32) : FVec Ideal S2000x40 .f32 :=
  broadcastTo S2000x40 (log (shapeCast S2000x1
    (multiReduction .add [1] S2000 E 0x00000000#32 reduces_S2000x40_S2000 (.inl rfl) rfl) shapeCasts_S2000_S2000x1))
    broadcasts_S2000x1_S2000x40

theorem lsumB_apply (E : FVec Ideal S2000x40 .f32) (p : Fin 2000) (j : Fin 40) :
    lsumB E (ix2 p j) = Ideal.log (∑ j' : Fin 40, E (ix2 p j')) := by
  refine (bcol_apply _ p j).trans ?_
  show Ideal.log (shapeCast S2000x1 _ shapeCasts_S2000_S2000x1 (ix2 p (0 : Fin 1))) = _
  exact congrArg Ideal.log ((ccol_apply _ p).trans (rowsum_apply E _ _ p))

/-- The body from the scores on: the shifted scores less the logarithm of the sum of their exponentials. -/
def post (L : FVec Ideal S2000x40 .f32) : FVec Ideal S2000x40 .f32 :=
  subf (subf L (maxB L)) (lsumB (exp (subf L (maxB L))))

/-- The body from the scores on is the log-softmax of each row. -/
theorem post_apply (L : FVec Ideal S2000x40 .f32) (p : Fin 2000) (q : Fin 40) :
    post L (ix2 p q) = Spec.lsmE (fun j => L (ix2 p j)) q := by
  have hE : ∀ j' : Fin 40, exp (subf L (maxB L)) (ix2 p j')
      = Ideal.exp (L (ix2 p j') - Spec.rowMax (fun j => L (ix2 p j))) := fun j' => by
    show Ideal.exp (L (ix2 p j') - maxB L (ix2 p j')) = _
    rw [maxB_apply]
  show (L (ix2 p q) - maxB L (ix2 p q)) - lsumB (exp (subf L (maxB L))) (ix2 p q) = _
  rw [maxB_apply, lsumB_apply, Finset.sum_congr rfl fun j' _ => hE j']
  rfl

/-- The stored value at `(p, q)` of the block: the log-softmax, at class `q`, of the scores of row `p`. -/
theorem pay_apply (x0 : Vec Ideal S2000x40 .f32) (x1 : Vec Ideal S2000x1 .f32) (x2 : Vec Ideal S2000x256 .f32)
    (xb : Vec Ideal S40 .f32) (xw : Vec Ideal S256x40 .bf16) (p : Fin 2000) (q : Fin 40) :
    k2_pay1 x0 x1 x2 xb xw (ix2 p q) = Spec.lsmE (fun j => score x0 x1 x2 xb xw p j) q := by
  have h : k2_pay1 x0 x1 x2 xb xw = post (scoresV x0 x1 x2 xb xw) := rfl
  rw [h, post_apply]
  exact congrArg (fun f => Spec.lsmE f q) (funext fun j => scoresV_apply x0 x1 x2 xb xw p j)

/-! ## The windows' blocks over the grid -/

/-- The printed index maps over the grid: the row-blocked windows sit at block row `t`, the weights and the bias at
    their one block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

theorem lt_N (t : Fin cfg2.N) : t.val < 25 := Nat.lt_of_lt_of_eq t.isLt (show cfg2.N = 25 from N_2)

/-- The block of summed projections at point `t` is rows `2000 t …` of their array. -/
theorem iblk_a (c : Dev nD) (t : Fin cfg2.N) (p : Fin 2000) (j : Fin 40) (hlt : t.val * 2000 + p.val < 50000) :
    (iblk2 V c 0 t : Vec Ideal S2000x40 .f32) (ix2 p j)
      = (V c main_v40 : S50000x40.Idx → EReal) (ix2 ⟨t.val * 2000 + p.val, hlt⟩ j) := by
  obtain ⟨e0, e1, -⟩ := idx_facts t
  unfold iblk2
  rw [View.read_apply]
  show V c main_v40 _ = V c main_v40 _
  congr 1
  funext a; apply Fin.ext
  match a with
  | ⟨0, _⟩ => show win2_0.index t (0 : Fin 2) * 2000 + 1 * p.val = t.val * 2000 + p.val; rw [e0]; omega
  | ⟨1, _⟩ => show win2_0.index t (1 : Fin 2) * 40 + 1 * j.val = j.val; rw [e1]; omega

/-- The block of reciprocal degrees at point `t` is rows `2000 t …` of their column. -/
theorem iblk_inv (c : Dev nD) (t : Fin cfg2.N) (p : Fin 2000) (hlt : t.val * 2000 + p.val < 50000) :
    (iblk2 V c 1 t : Vec Ideal S2000x1 .f32) (ix2 p (0 : Fin 1))
      = (V c main_v12 : S50000x1.Idx → EReal) (ix2 ⟨t.val * 2000 + p.val, hlt⟩ (0 : Fin 1)) := by
  obtain ⟨-, -, e0, e1, -⟩ := idx_facts t
  unfold iblk2
  rw [View.read_apply]
  show V c main_v12 _ = V c main_v12 _
  congr 1
  funext a; apply Fin.ext
  match a with
  | ⟨0, _⟩ => show win2_1.index t (0 : Fin 2) * 2000 + 1 * p.val = t.val * 2000 + p.val; rw [e0]; omega
  | ⟨1, _⟩ => show win2_1.index t (1 : Fin 2) * 1 + 1 * 0 = 0; rw [e1]

/-- The hidden block at point `t` is rows `2000 t …` of the hidden array. -/
theorem iblk_h (c : Dev nD) (t : Fin cfg2.N) (p : Fin 2000) (k : Fin 256) (hlt : t.val * 2000 + p.val < 50000) :
    (iblk2 V c 2 t : Vec Ideal S2000x256 .f32) (ix2 p k)
      = (V c main_v27 : S50000x256.Idx → EReal) (ix2 ⟨t.val * 2000 + p.val, hlt⟩ k) := by
  obtain ⟨-, -, -, -, e0, e1, -⟩ := idx_facts t
  unfold iblk2
  rw [View.read_apply]
  show V c main_v27 _ = V c main_v27 _
  congr 1
  funext a; apply Fin.ext
  match a with
  | ⟨0, _⟩ => show win2_2.index t (0 : Fin 2) * 2000 + 1 * p.val = t.val * 2000 + p.val; rw [e0]; omega
  | ⟨1, _⟩ => show win2_2.index t (1 : Fin 2) * 256 + 1 * k.val = k.val; rw [e1]; omega

/-- The weight block at every point is the whole weight array. -/
theorem iblk_w (c : Dev nD) (t : Fin cfg2.N) (k : Fin 256) (q : Fin 40) :
    (iblk2 V c 3 t : Vec Ideal S256x40 .bf16) (ix2 k q) = (V c main_v42 : S256x40.Idx → EReal) (ix2 k q) := by
  obtain ⟨-, -, -, -, -, -, e0, e1, -⟩ := idx_facts t
  unfold iblk2
  rw [View.read_apply]
  show V c main_v42 _ = V c main_v42 _
  congr 1
  funext a; apply Fin.ext
  match a with
  | ⟨0, _⟩ => show win2_3.index t (0 : Fin 2) * 256 + 1 * k.val = k.val; rw [e0]; omega
  | ⟨1, _⟩ => show win2_3.index t (1 : Fin 2) * 40 + 1 * q.val = q.val; rw [e1]; omega

/-- The bias block at every point is the whole bias. -/
theorem iblk_b (c : Dev nD) (t : Fin cfg2.N) (q : Fin 40) :
    (iblk2 V c 4 t : Vec Ideal S40 .f32) (ix1 q) = (V c main_arg6 : S40.Idx → EReal) (ix1 q) := by
  obtain ⟨-, -, -, -, -, -, -, -, e0, -⟩ := idx_facts t
  unfold iblk2
  rw [View.read_apply]
  show V c main_arg6 _ = V c main_arg6 _
  congr 1
  funext a; apply Fin.ext
  match a with
  | ⟨0, _⟩ => show win2_4.index t (0 : Fin 1) * 40 + 1 * q.val = q.val; rw [e0]; omega

/-- WHAT POINT `t` WRITES BACK is block `t` of the result of the five arrays. -/
theorem flushed_eq (c : Dev nD) (t : Fin cfg2.N) :
    (dat2 V c).flushed 5 t
      = ((cfg2.win 5).blk t).view.read (Elt Ideal)
          (Spec.out (V c main_v40) (V c main_v12) (V c main_v27) (V c main_v42) (V c main_arg6)) := by
  show (cfg2.win 5).cut (grid2.coords t) ((dat2 V c).after 5 t) = _
  rw [after2_5]
  unfold out2_5
  rw [View.canon_unit_zero hz]
  simp only [View.ld_unit_zero (S := S2000x40) hz, View.ld_unit_zero (S := S2000x1) hz,
    View.ld_unit_zero (S := S2000x256) hz, View.ld_unit_zero (S := S256x40) hz, View.ld_unit_zero (S := S40) hz1]
  have ht := lt_N t
  obtain ⟨-, -, -, -, -, -, -, -, -, e4, e5⟩ := idx_facts t
  funext y
  obtain ⟨p, q, rfl⟩ : ∃ (p : Fin 2000) (q : Fin 40), y = ix2 p q := ⟨y 0, y 1, eq_ix2 y⟩
  rw [View.read_apply]
  show k2_pay1 (iblk2 V c 0 t) (iblk2 V c 1 t) (iblk2 V c 2 t) (iblk2 V c 4 t) (iblk2 V c 3 t) (ix2 p q) = _
  refine (pay_apply _ _ _ _ _ p q).trans ?_
  have hlt : t.val * 2000 + p.val < 50000 := by have := p.isLt; omega
  rw [Spec.out_at _ _ _ _ _ _ ⟨t.val * 2000 + p.val, hlt⟩ q
    (by show win2_5.index t (0 : Fin 2) * 2000 + 1 * p.val = t.val * 2000 + p.val; rw [e4]; omega)
    (by show win2_5.index t (1 : Fin 2) * 40 + 1 * q.val = q.val; rw [e5]; omega)]
  refine congrArg (fun f => Spec.lsmE f q) (funext fun j => ?_)
  unfold score Spec.logitE
  rw [iblk_a V c t p j hlt, iblk_inv V c t p hlt, iblk_b V c t j]
  refine congrArg (fun s => _ + s) (Finset.sum_congr rfl fun k _ => ?_)
  rw [iblk_h V c t p k hlt, iblk_w V c t k j]

/-- An index of the result array is in point `t`'s block iff each coordinate is in the block's range on its axis. -/
theorem mem_blk (t : Fin cfg2.N) (i : S50000x40.Idx) :
    i ∈ ((cfg2.win 5).blk t).view.set ↔ ∀ a : Fin 2, win2_5.index t a * S2000x40.size a ≤ (i a).val
      ∧ (i a).val < win2_5.index t a * S2000x40.size a + S2000x40.size a := by
  show i ∈ ((View.whole main_v43).slice (win2_5.rect t)).set ↔ _
  rw [View.set_slice_whole, Rect.mem_set_unit]
  exact Iff.rfl

/-- Row `r` of the result is in the block of point `r / 2000`. -/
theorem cover (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : cfg2.N = 25 := N_2
  refine ⟨⟨(i 0).val / 2000, by rw [hN]; omega⟩, flush2_5 _, ?_⟩
  obtain ⟨-, -, -, -, -, -, -, -, -, e4, e5⟩ := idx_facts ⟨(i 0).val / 2000, by rw [hN]; omega⟩
  rw [mem_blk]
  intro a
  match a with
  | ⟨0, _⟩ =>
    show win2_5.index _ (0 : Fin 2) * 2000 ≤ (i 0).val ∧ (i 0).val < win2_5.index _ (0 : Fin 2) * 2000 + 2000
    rw [e4]; show (i 0).val / 2000 * 2000 ≤ (i 0).val ∧ (i 0).val < (i 0).val / 2000 * 2000 + 2000; omega
  | ⟨1, _⟩ =>
    show win2_5.index _ (1 : Fin 2) * 40 ≤ (i 1).val ∧ (i 1).val < win2_5.index _ (1 : Fin 2) * 40 + 40
    rw [e5]; omega

/-- THE RESULT ARRAY of the epilogue kernel, launched from any contents `V`. -/
theorem value (c : Dev nD) : (dat2 V c).arrAt 5 cfg2.N
    = Spec.out (V c main_v40) (V c main_v12) (V c main_v27) (V c main_v42) (V c main_arg6) := by
  exact (dat2 V c).arrAt_eq_of_cover 5
    (Spec.out (V c main_v40) (V c main_v12) (V c main_v27) (V c main_v42) (V c main_arg6))
    (fun t _ => flushed_eq V c t) cover

end Cert.KernelIdeal.Region2

end
-- ==== Proof.KernelValue.lean ====
import proofs.«414649_j38156489457766_3_alg».proof.Proof.Region0
import proofs.«414649_j38156489457766_3_alg».proof.Proof.Region1
import proofs.«414649_j38156489457766_3_alg».proof.Proof.Region2
import Idealize.ShloMosaic.Lib.StableHlo.Run

/-! # The kernel program's result as one term of its arguments

@main of the kernel program is three stretches of host operations and three kernels. What each buffer holds at each
boundary is read back here, boundary by boundary: a host stretch leaves in a buffer it writes the operation's value of
its operands' contents and leaves every other buffer alone; a kernel leaves in its output array the function of its input
arrays that its region module proves, and every other buffer as it found it. Composed, the result buffer after the last
kernel is `result` of the eight argument arrays: the layer-1 array `Spec.hidden` of the neighbour sum of `x`, projected
(`Spec.proj`), summed over the neighbours again, and finished by `Spec.out`. -/

set_option maxRecDepth 16384
-- one theorem at a time: each reading below walks a whole stretch of host operations
set_option Elab.async false

noncomputable section

namespace Cert.KernelIdeal.KValue

open Cert.KernelIdeal Cert.KernelIdeal.Gen Idealize.ShloMosaic Idealize.ShloMosaic.TcCoe Idealize.SL.Sem
open Idealize.ShloMosaic.StableHlo
open Idealize.ShloMosaic.Pipeline (Dat)

/-! ## The host stretches' values -/

/-- The edges' source nodes: row 0 of the edge list. -/
def eSrc (x1 : IVec S2x800000 32) : IVec S800000 32 :=
  shapeCast S800000 (extractStridedSlice S1x800000 ![0, 0] x1 slices_S2x800000_S1x800000_0_0) shapeCasts_S1x800000_S800000

/-- The edges' destination nodes: row 1 of the edge list. -/
def eDst (x1 : IVec S2x800000 32) : IVec S800000 32 :=
  shapeCast S800000 (extractStridedSlice S1x800000 ![1, 0] x1 slices_S2x800000_S1x800000_1_0) shapeCasts_S1x800000_S800000

/-- The source nodes as a column of gather indices, a negative one counted from the end. -/
def srcCol (v1 : IVec S800000 32) : IVec S800000x1 32 :=
  broadcastInDim S800000x1 ![0] bcast_S800000_S800000x1_0
    (select (cmpi CmpIPredicate.slt v1 (broadcastInDim S800000 ![] bcast_S_S800000 (constantI S_ 32 0#32)))
      (addi v1 (broadcastInDim S800000 ![] bcast_S_S800000 (constantI S_ 32 50000#32))) v1)

/-- The destination nodes as a column of scatter indices. -/
def dstCol (v3 : IVec S800000 32) : IVec S800000x1 32 :=
  broadcastInDim S800000x1 ![0] bcast_S800000_S800000x1_0 v3

/-- The degree: the number of edges into each node, at least one. -/
def deg (v3 : IVec S800000 32) : FVec Ideal S50000 .f32 :=
  maximumf
    (Host.scatterAdd scatter_S50000_S800000x1_S800000_n_0_0_1
      (broadcastInDim S50000 ![] bcast_S_S50000 (constant S_ .f32 0x00000000#32)) (dstCol v3)
      (broadcastInDim S800000 ![] bcast_S_S800000 (constant S_ .f32 0x3F800000#32)))
    (broadcastInDim S50000 ![] bcast_S_S50000 (constant S_ .f32 0x3F800000#32))

/-- The reciprocal degree, as a column. -/
def invCol (v3 : IVec S800000 32) : FVec Ideal S50000x1 .f32 :=
  broadcastInDim S50000x1 ![0] bcast_S50000_S50000x1_0
    (Host.divf (broadcastInDim S50000 ![] bcast_S_S50000 (constant S_ .f32 0x3F800000#32)) (deg v3))

/-- The neighbour sum of a 128-wide table. -/
def seg128 (f : FVec Ideal S50000x128 .f32) (v1 v3 : IVec S800000 32) : FVec Ideal S50000x128 .f32 :=
  Host.scatterAdd scatter_S50000x128_S800000x1_S800000x128_1_0_0_1
    (broadcastInDim S50000x128 ![] bcast_S_S50000x128 (constant S_ .f32 0x00000000#32)) (dstCol v3)
    (Host.gather gather_S50000x128_S800000x1_S800000x128_1_0_n_n_0_1_1128 f (srcCol v1))

/-- The neighbour sum of a 40-wide table. -/
def seg40 (f : FVec Ideal S50000x40 .f32) (v1 v3 : IVec S800000 32) : FVec Ideal S50000x40 .f32 :=
  Host.scatterAdd scatter_S50000x40_S800000x1_S800000x40_1_0_0_1
    (broadcastInDim S50000x40 ![] bcast_S_S50000x40 (constant S_ .f32 0x00000000#32)) (dstCol v3)
    (Host.gather gather_S50000x40_S800000x1_S800000x40_1_0_n_n_0_1_140 f (srcCol v1))

/-- A layer-1 weight matrix transposed (the change of float format is the identity on the extended reals). -/
def wT128 (w : FVec Ideal S256x128 .f32) : FVec Ideal S128x256 .bf16 :=
  truncf .bf16 (transpose S128x256 [1, 0] w transposes_S256x128_S128x256_1_0) bitsLt_bf16_f32

/-- A layer-2 weight matrix transposed. -/
def wT40 (w : FVec Ideal S40x256 .f32) : FVec Ideal S256x40 .bf16 :=
  truncf .bf16 (transpose S256x40 [1, 0] w transposes_S40x256_S256x40_1_0) bitsLt_bf16_f32

/-- The layer-1 array of the arguments. -/
def hid (x0 : FVec Ideal S50000x128 .f32) (x1 : IVec S2x800000 32) (x2 : FVec Ideal S256x128 .f32) (x3 : FVec Ideal S256 .f32)
    (x4 : FVec Ideal S256x128 .f32) : Spec.Arr2 50000 256 :=
  Spec.hidden (seg128 x0 (eSrc x1) (eDst x1)) (invCol (eDst x1)) x0 (wT128 x2) x3 (wT128 x4)

/-- THE RESULT of the kernel program, of its eight arguments. -/
def result (x0 : FVec Ideal S50000x128 .f32) (x1 : IVec S2x800000 32) (x2 : FVec Ideal S256x128 .f32) (x3 : FVec Ideal S256 .f32)
    (x4 : FVec Ideal S256x128 .f32) (x5 : FVec Ideal S40x256 .f32) (x6 : FVec Ideal S40 .f32) (x7 : FVec Ideal S40x256 .f32) :
    Spec.Arr2 50000 40 :=
  Spec.out (seg40 (Spec.proj (hid x0 x1 x2 x3 x4) (wT40 x5)) (eSrc x1) (eDst x1)) (invCol (eDst x1)) (hid x0 x1 x2 x3 x4)
    (wT40 x7) x6

variable (m : (ℓ : Loc nD τ sig) → Buf (Elt Ideal) ℓ) (ρ : Dev nD → PrngReg)

/-! ## After the first host stretch -/

theorem W1_v1 (c : Dev nD) : W1 m ρ c (Proc.devRef .tc main_v1) = eSrc (m ((c : Thread nD τ).loc main_arg1)) := by
  show StableHlo.after hostOps0 (W0 m ρ c) (Proc.devRef .tc main_v1) = _
  after_results
  try rfl
theorem W1_v3 (c : Dev nD) : W1 m ρ c (Proc.devRef .tc main_v3) = eDst (m ((c : Thread nD τ).loc main_arg1)) := by
  show StableHlo.after hostOps0 (W0 m ρ c) (Proc.devRef .tc main_v3) = _
  after_results
  try rfl
theorem W1_v12 (c : Dev nD) : W1 m ρ c (Proc.devRef .tc main_v12) = invCol (eDst (m ((c : Thread nD τ).loc main_arg1))) := by
  show StableHlo.after hostOps0 (W0 m ρ c) (Proc.devRef .tc main_v12) = _
  after_results
  try rfl
set_option maxHeartbeats 4000000 in
theorem W1_v22 (c : Dev nD) : W1 m ρ c (Proc.devRef .tc main_v22) = seg128 (m ((c : Thread nD τ).loc main_arg0)) (eSrc (m ((c : Thread nD τ).loc main_arg1))) (eDst (m ((c : Thread nD τ).loc main_arg1))) := by
  show StableHlo.after hostOps0 (W0 m ρ c) (Proc.devRef .tc main_v22) = _
  after_results
  try rfl
theorem W1_v24 (c : Dev nD) : W1 m ρ c (Proc.devRef .tc main_v24) = wT128 (m ((c : Thread nD τ).loc main_arg2)) := by
  show StableHlo.after hostOps0 (W0 m ρ c) (Proc.devRef .tc main_v24) = _
  after_results
  try rfl
theorem W1_v26 (c : Dev nD) : W1 m ρ c (Proc.devRef .tc main_v26) = wT128 (m ((c : Thread nD τ).loc main_arg4)) := by
  show StableHlo.after hostOps0 (W0 m ρ c) (Proc.devRef .tc main_v26) = _
  after_results
  try rfl
theorem W1_arg0 (c : Dev nD) : W1 m ρ c (Proc.devRef .tc main_arg0) = m ((c : Thread nD τ).loc main_arg0) := by
  show StableHlo.after hostOps0 (W0 m ρ c) (Proc.devRef .tc main_arg0) = _
  after_results
  try rfl
theorem W1_arg3 (c : Dev nD) : W1 m ρ c (Proc.devRef .tc main_arg3) = m ((c : Thread nD τ).loc main_arg3) := by
  show StableHlo.after hostOps0 (W0 m ρ c) (Proc.devRef .tc main_arg3) = _
  after_results
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl
theorem W1_arg6 (c : Dev nD) : W1 m ρ c (Proc.devRef .tc main_arg6) = m ((c : Thread nD τ).loc main_arg6) := by
  show StableHlo.after hostOps0 (W0 m ρ c) (Proc.devRef .tc main_arg6) = _
  after_results
  try rfl
theorem W1_arg7 (c : Dev nD) : W1 m ρ c (Proc.devRef .tc main_arg7) = m ((c : Thread nD τ).loc main_arg7) := by
  show StableHlo.after hostOps0 (W0 m ρ c) (Proc.devRef .tc main_arg7) = _
  after_results
  try rfl

/-! ## After the layer-1 kernel -/

theorem W2_v27 (c : Dev nD) : W2 m ρ c (Proc.devRef .tc main_v27)
    = hid (m ((c : Thread nD τ).loc main_arg0)) (m ((c : Thread nD τ).loc main_arg1)) (m ((c : Thread nD τ).loc main_arg2)) (m ((c : Thread nD τ).loc main_arg3)) (m ((c : Thread nD τ).loc main_arg4)) := by
  refine ((W2_arr m ρ c 6).trans (Region0.value (V1 m ρ) c)).trans ?_
  show Spec.hidden (W1 m ρ c (Proc.devRef .tc main_v22)) (W1 m ρ c (Proc.devRef .tc main_v12)) (W1 m ρ c (Proc.devRef .tc main_arg0))
    (W1 m ρ c (Proc.devRef .tc main_v24)) (W1 m ρ c (Proc.devRef .tc main_arg3)) (W1 m ρ c (Proc.devRef .tc main_v26)) = _
  rw [W1_v22, W1_v12, W1_arg0, W1_v24, W1_arg3, W1_v26]
  rfl
theorem W2_v12 (c : Dev nD) : W2 m ρ c (Proc.devRef .tc main_v12) = invCol (eDst (m ((c : Thread nD τ).loc main_arg1))) :=
  ((W2_arr m ρ c 1).trans (((dat0 (V1 m ρ) c).arrAt_in 1 rfl _).trans (A_eq0 (V1 m ρ) c 1))).trans (W1_v12 m ρ c)
theorem W2_v1 (c : Dev nD) : W2 m ρ c (Proc.devRef .tc main_v1) = eSrc (m ((c : Thread nD τ).loc main_arg1)) :=
  (W2_of_ne m ρ c main_v1 (by decide)).trans (W1_v1 m ρ c)
theorem W2_v3 (c : Dev nD) : W2 m ρ c (Proc.devRef .tc main_v3) = eDst (m ((c : Thread nD τ).loc main_arg1)) :=
  (W2_of_ne m ρ c main_v3 (by decide)).trans (W1_v3 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## After the second host stretch -/

theorem W3_v29 (c : Dev nD) : W3 m ρ c (Proc.devRef .tc main_v29) = wT40 (W2 m ρ c (Proc.devRef .tc main_arg5)) := by
  show StableHlo.after hostOps1 (W2 m ρ c) (Proc.devRef .tc main_v29) = _
  after_results
  try rfl
theorem W3_v27 (c : Dev nD) : W3 m ρ c (Proc.devRef .tc main_v27) = W2 m ρ c (Proc.devRef .tc main_v27) := by
  show StableHlo.after hostOps1 (W2 m ρ c) (Proc.devRef .tc main_v27) = _
  after_results
  try rfl
theorem W3_v1 (c : Dev nD) : W3 m ρ c (Proc.devRef .tc main_v1) = W2 m ρ c (Proc.devRef .tc main_v1) := by
  show StableHlo.after hostOps1 (W2 m ρ c) (Proc.devRef .tc main_v1) = _
  after_results
  try rfl
theorem W3_v3 (c : Dev nD) : W3 m ρ c (Proc.devRef .tc main_v3) = W2 m ρ c (Proc.devRef .tc main_v3) := by
  show StableHlo.after hostOps1 (W2 m ρ c) (Proc.devRef .tc main_v3) = _
  after_results
  try rfl
theorem W3_v12 (c : Dev nD) : W3 m ρ c (Proc.devRef .tc main_v12) = W2 m ρ c (Proc.devRef .tc main_v12) := by
  show StableHlo.after hostOps1 (W2 m ρ c) (Proc.devRef .tc main_v12) = _
  after_results
  try rfl
theorem W3_arg6 (c : Dev nD) : W3 m ρ c (Proc.devRef .tc main_arg6) = W2 m ρ c (Proc.devRef .tc main_arg6) := by
  show StableHlo.after hostOps1 (W2 m ρ c) (Proc.devRef .tc main_arg6) = _
  after_results
  try rfl
theorem W3_arg7 (c : Dev nD) : W3 m ρ c (Proc.devRef .tc main_arg7) = W2 m ρ c (Proc.devRef .tc main_arg7) := by
  show StableHlo.after hostOps1 (W2 m ρ c) (Proc.devRef .tc main_arg7) = _
  after_results
  try rfl

/-! ## After the projection kernel -/

theorem W4_v30 (c : Dev nD) : W4 m ρ c (Proc.devRef .tc main_v30)
    = Spec.proj (W3 m ρ c (Proc.devRef .tc main_v27)) (W3 m ρ c (Proc.devRef .tc main_v29)) :=
  (W4_arr m ρ c 2).trans (Region1.value (V3 m ρ) c)
theorem W4_v27 (c : Dev nD) : W4 m ρ c (Proc.devRef .tc main_v27) = W3 m ρ c (Proc.devRef .tc main_v27) :=
  (W4_arr m ρ c 0).trans (((dat1 (V3 m ρ) c).arrAt_in 0 rfl _).trans (A_eq1 (V3 m ρ) c 0))
theorem W4_v1 (c : Dev nD) : W4 m ρ c (Proc.devRef .tc main_v1) = W3 m ρ c (Proc.devRef .tc main_v1) :=
  W4_of_ne m ρ c main_v1 (by decide)
theorem W4_v3 (c : Dev nD) : W4 m ρ c (Proc.devRef .tc main_v3) = W3 m ρ c (Proc.devRef .tc main_v3) :=
  W4_of_ne m ρ c main_v3 (by decide)
theorem W4_v12 (c : Dev nD) : W4 m ρ c (Proc.devRef .tc main_v12) = W3 m ρ c (Proc.devRef .tc main_v12) :=
  W4_of_ne m ρ c main_v12 (by decide)
theorem W4_arg6 (c : Dev nD) : W4 m ρ c (Proc.devRef .tc main_arg6) = W3 m ρ c (Proc.devRef .tc main_arg6) :=
  W4_of_ne m ρ c main_arg6 (by decide)
theorem W4_arg7 (c : Dev nD) : W4 m ρ c (Proc.devRef .tc main_arg7) = W3 m ρ c (Proc.devRef .tc main_arg7) :=
  W4_of_ne m ρ c main_arg7 (by decide)

/-! ## After the third host stretch -/

theorem W5_v40 (c : Dev nD) : W5 m ρ c (Proc.devRef .tc main_v40) = seg40 (W4 m ρ c (Proc.devRef .tc main_v30)) (W4 m ρ c (Proc.devRef .tc main_v1)) (W4 m ρ c (Proc.devRef .tc main_v3)) := by
  show StableHlo.after hostOps2 (W4 m ρ c) (Proc.devRef .tc main_v40) = _
  after_results
  try rfl
theorem W5_v42 (c : Dev nD) : W5 m ρ c (Proc.devRef .tc main_v42) = wT40 (W4 m ρ c (Proc.devRef .tc main_arg7)) := by
  show StableHlo.after hostOps2 (W4 m ρ c) (Proc.devRef .tc main_v42) = _
  after_results
  try rfl
theorem W5_v12 (c : Dev nD) : W5 m ρ c (Proc.devRef .tc main_v12) = W4 m ρ c (Proc.devRef .tc main_v12) := by
  show StableHlo.after hostOps2 (W4 m ρ c) (Proc.devRef .tc main_v12) = _
  after_results
  try rfl
theorem W5_v27 (c : Dev nD) : W5 m ρ c (Proc.devRef .tc main_v27) = W4 m ρ c (Proc.devRef .tc main_v27) := by
  show StableHlo.after hostOps2 (W4 m ρ c) (Proc.devRef .tc main_v27) = _
  after_results
  try rfl
theorem W5_arg6 (c : Dev nD) : W5 m ρ c (Proc.devRef .tc main_arg6) = W4 m ρ c (Proc.devRef .tc main_arg6) := by
  show StableHlo.after hostOps2 (W4 m ρ c) (Proc.devRef .tc main_arg6) = _
  after_results
  try rfl

/-! ## After the epilogue kernel -/

/-- THE RESULT BUFFER after the last kernel is `result` of the argument arrays. -/
theorem W6_result (c : Dev nD) : W6 m ρ c (Proc.devRef .tc main_v43)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W6_arr m ρ c 5).trans (Region2.value (V5 m ρ) c)).trans ?_
  show Spec.out (W5 m ρ c (Proc.devRef .tc main_v40)) (W5 m ρ c (Proc.devRef .tc main_v12)) (W5 m ρ c (Proc.devRef .tc main_v27))
    (W5 m ρ c (Proc.devRef .tc main_v42)) (W5 m ρ c (Proc.devRef .tc main_arg6)) = _
  rw [W5_v40, W5_v12, W5_v27, W5_v42, W5_arg6, W4_v30, W4_v1, W4_v3, W4_v12, W4_v27, W4_arg6, W4_arg7,
    W3_v27, W3_v29, W3_v1, W3_v3, W3_v12, W3_arg6, W3_arg7, W2_v27, W2_v1, W2_v3, W2_v12, W2_arg5, W2_arg6, W2_arg7]
  unfold result
  rfl

end Cert.KernelIdeal.KValue

end
-- ==== Proof.RefAfter.lean ====
import proofs.«414649_j38156489457766_3_alg».proof.Proof.RefRun
import proofs.«414649_j38156489457766_3_alg».proof.Proof.RefRead

/-! # The reference's fold of operations, read back in three stretches

The run of the reference leaves its result buffer at the fold of its 88 operations over the launch contents. Read here
in three stretches: the first 40 operations end with the layer-1 array (the `relu`) and leave the two edge-index vectors
and the arguments as they were made; the next 33 are layer 2, a term of the layer-1 array, the index vectors and three
arguments, and end with the class scores; the last 15 are the log-softmax of the scores. Each stretch's term is the
staged value `val_…` of the read-at-an-index module, so the result buffer ends at `val_main_v59` of the eight argument
arrays. Cutting at the layer-1 array and at the scores keeps every term small: each of the two is read several times by
what follows. -/

set_option maxRecDepth 16384
-- one theorem at a time: each reading below walks the whole list of operations
set_option Elab.async false

noncomputable section

namespace Cert.ReferenceIdeal.RefAfter

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ)

/-- The first stretch: everything up to the layer-1 array. -/
abbrev ops1 : List (HloOp τ sig (Elt F)) := (ops (F := F)).take 40
/-- The second stretch: layer 2, up to the class scores. -/
abbrev ops2 : List (HloOp τ sig (Elt F)) := ((ops (F := F)).drop 40).take 33
/-- The third stretch: the log-softmax. -/
abbrev ops3 : List (HloOp τ sig (Elt F)) := ((ops (F := F)).drop 40).drop 33

theorem ops_split : (ops : List (HloOp τ sig (Elt F))) = ops1 ++ (ops2 ++ ops3) := by
  unfold ops1 ops2 ops3
  rw [List.take_append_drop, List.take_append_drop]

/-! ## After the first stretch -/

set_option maxHeartbeats 4000000 in
theorem first_v31 (c : Dev nD) :
    after (ops1 (F := F)) (launchContents m c) (Proc.devRef .tc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  simp only [ops1, ops, List.take_succ_cons, List.take_zero]
  after_results_simp
  try simp only [TRef.ofBuf, TRef.toBuf, cast_eq]
  rfl
set_option maxHeartbeats 4000000 in
theorem first_v1 (c : Dev nD) :
    after (ops1 (F := F)) (launchContents m c) (Proc.devRef .tc main_v1) = val_main_v1 (F := F) (m ((c.tc : Thread nD τ).loc main_arg1)) := by
  simp only [ops1, ops, List.take_succ_cons, List.take_zero]
  after_results_simp
  try simp only [TRef.ofBuf, TRef.toBuf, cast_eq]
  rfl
set_option maxHeartbeats 4000000 in
theorem first_v3 (c : Dev nD) :
    after (ops1 (F := F)) (launchContents m c) (Proc.devRef .tc main_v3) = val_main_v3 (F := F) (m ((c.tc : Thread nD τ).loc main_arg1)) := by
  simp only [ops1, ops, List.take_succ_cons, List.take_zero]
  after_results_simp
  try simp only [TRef.ofBuf, TRef.toBuf, cast_eq]
  rfl
set_option maxHeartbeats 4000000 in
theorem first_arg5 (c : Dev nD) :
    after (ops1 (F := F)) (launchContents m c) (Proc.devRef .tc main_arg5) = m ((c.tc : Thread nD τ).loc main_arg5) := by
  simp only [ops1, ops, List.take_succ_cons, List.take_zero]
  after_results_simp <;> rfl
set_option maxHeartbeats 4000000 in
theorem first_arg6 (c : Dev nD) :
    after (ops1 (F := F)) (launchContents m c) (Proc.devRef .tc main_arg6) = m ((c.tc : Thread nD τ).loc main_arg6) := by
  simp only [ops1, ops, List.take_succ_cons, List.take_zero]
  after_results_simp <;> rfl
set_option maxHeartbeats 4000000 in
theorem first_arg7 (c : Dev nD) :
    after (ops1 (F := F)) (launchContents m c) (Proc.devRef .tc main_arg7) = m ((c.tc : Thread nD τ).loc main_arg7) := by
  simp only [ops1, ops, List.take_succ_cons, List.take_zero]
  after_results_simp <;> rfl

/-! ## After the second stretch -/

set_option maxHeartbeats 8000000 in
/-- The class scores, from any contents that hold the first stretch's values. -/
theorem second_v58 (c : Dev nD) (W : Valuation τ sig (Elt F))
    (h31 : W (Proc.devRef .tc main_v31) = val_main_v31 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (h1 : W (Proc.devRef .tc main_v1) = val_main_v1 (F := F) (m ((c.tc : Thread nD τ).loc main_arg1)))
    (h3 : W (Proc.devRef .tc main_v3) = val_main_v3 (F := F) (m ((c.tc : Thread nD τ).loc main_arg1)))
    (h5 : W (Proc.devRef .tc main_arg5) = m ((c.tc : Thread nD τ).loc main_arg5)) (h6 : W (Proc.devRef .tc main_arg6) = m ((c.tc : Thread nD τ).loc main_arg6))
    (h7 : W (Proc.devRef .tc main_arg7) = m ((c.tc : Thread nD τ).loc main_arg7)) :
    after (ops2 (F := F)) W (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp only [ops2, ops, List.drop_succ_cons, List.drop_zero, List.take_succ_cons, List.take_zero]
  after_results_simp
  rw [h31, h1, h3, h5, h6, h7]
  unfold val_main_v58 val_main_v57 val_main_v56 val_main_v55 val_main_v54 val_main_v53 val_main_v52 val_main_v51 val_main_v50 val_main_v49 val_main_v48 val_main_v47 val_main_v46 val_main_cst_9 val_main_v45 val_main_v44 val_main_v43 val_main_cst_8 val_main_v42 val_main_cst_7 val_main_v41 val_main_v40 val_main_v39 val_main_cst_6 val_main_v38 val_main_v37 val_main_v36 val_main_v35 val_main_v34 val_main_c_5 val_main_v33 val_main_v32 val_main_c_4
  rfl

/-! ## After the third stretch

The log-softmax is a function jax outlined: its operations read and write through typed references, whose contents
are carried along the equation "the buffer's type is the tensor's type". Along such an equation between one type and
itself the transport is the identity. -/

/-- Contents carried to the buffer's type and back are the contents. -/
theorem ofBuf_toBuf {T : BufTy} (x : TRef sig T) (v : T.Contents (Elt F)) : x.ofBuf (x.toBuf v) = v := by
  obtain ⟨r, h, h2, h3⟩ := x
  subst h
  rfl
/-- Reading the class scores' buffer at its own type. -/
theorem ofBuf_v58 (u : (⟨S50000x40, .f32⟩ : BufTy).Contents (Elt F)) :
    (TRef.of (T := ⟨S50000x40, .f32⟩) main_v58).ofBuf u = u := cast_eq _ _
/-- Writing the result buffer at its own type. -/
theorem toBuf_v59 (u : (⟨S50000x40, .f32⟩ : BufTy).Contents (Elt F)) :
    (TRef.of (T := ⟨S50000x40, .f32⟩) main_v59).toBuf u = u := cast_eq _ _

set_option maxHeartbeats 8000000 in
/-- The log-softmax, from any contents that hold the class scores. -/
theorem third_v59 (c : Dev nD) (W : Valuation τ sig (Elt F))
    (h58 : W (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :
    after (ops3 (F := F)) W (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  simp only [ops3, ops, List.drop_succ_cons, List.drop_zero]
  after_results_simp
  rw [h58]
  simp only [ofBuf_toBuf]
  rw [ofBuf_v58, toBuf_v59]
  unfold val_main_v59 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
  rfl

/-- THE RESULT BUFFER's fold is the last stage of the eight argument arrays. -/
theorem after_v59 (c : Dev nD) :
    after (ops (F := F)) (launchContents m c) (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split, after_append, after_append]
  exact third_v59 m c _ (second_v58 m c _ (first_v31 m c) (first_v1 m c) (first_v3 m c) (first_arg5 m c) (first_arg6 m c)
    (first_arg7 m c))

end Cert.ReferenceIdeal.RefAfter

end
-- ==== Proof.RefValue.lean ====
import proofs.«414649_j38156489457766_3_alg».proof.Proof.RefRead
import proofs.«414649_j38156489457766_3_alg».proof.Proof.Spec
import Idealize.ShloMosaic.Lib.Pipeline.Value
import Idealize.ShloMosaic.Lib.ValueIdx
import Idealize.ShloMosaic.PureOps.Ideal.Laws

/-! # The reference's result, entry by entry

The reference is a straight line of host operations. Read at an entry `(i, j)`, its layer-1 array is the maximum with zero
of: row `i` of the summed neighbour features, each entry divided by the node's degree, against column `j` of the transposed
left weights; plus the bias; plus row `i` of the features against column `j` of the transposed right weights
(`Spec.hiddenR`). Its class scores are the same expression over the summed hidden rows (`Spec.logitRE`), and its result the
log-softmax of each row of scores: the row's maximum folded from minus infinity (the reference takes one more maximum
with minus infinity, which changes nothing), the shifted scores, the logarithm of the sum of their exponentials
(`Spec.outR`). The two neighbour sums and the degree are left as the reference computes them. -/

set_option maxRecDepth 16384

open scoped BigOperators

noncomputable section

namespace Cert.ReferenceIdeal.RefValue

open Cert.ReferenceIdeal Cert.ReferenceIdeal.Gen Cert.ReferenceIdeal.ReadP Idealize.ShloMosaic Idealize.ShloMosaic.TcCoe
open Idealize.ShloMosaic.ValueIdx

variable (x0 : (⟨S50000x128, .f32⟩ : BufTy).Contents (Elt Ideal)) (x1 : (⟨S2x800000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S40x256, .f32⟩ : BufTy).Contents (Elt Ideal))
  (x6 : (⟨S40, .f32⟩ : BufTy).Contents (Elt Ideal)) (x7 : (⟨S40x256, .f32⟩ : BufTy).Contents (Elt Ideal))

/-! ## Index equations of layer 1: the composed index maps of the staged reads, at explicit coordinates -/

/-- The left operand of the neighbour product of layer 1 is read at row `i`, column `k`. -/
private theorem lidx24 (i : Fin 50000) (j : Fin 256) (k : Fin 128) : lidx_main_v24 (ix2 i j) k = ix2 i k :=
  funext fun a => Fin.ext (by match a with | ⟨0, _⟩ => rfl | ⟨1, _⟩ => rfl)

/-- The right operand of the neighbour product of layer 1 is read at row `k`, column `j`. -/
private theorem ridx24 (i : Fin 50000) (j : Fin 256) (k : Fin 128) : ridx_main_v24 (ix2 i j) k = ix2 k j :=
  funext fun a => Fin.ext (by match a with | ⟨0, _⟩ => rfl | ⟨1, _⟩ => rfl)

/-- The left operand of the root product of layer 1 is read at row `i`, column `k`. -/
private theorem lidx29 (i : Fin 50000) (j : Fin 256) (k : Fin 128) : lidx_main_v29 (ix2 i j) k = ix2 i k :=
  funext fun a => Fin.ext (by match a with | ⟨0, _⟩ => rfl | ⟨1, _⟩ => rfl)

/-- The right operand of the root product of layer 1 is read at row `k`, column `j`. -/
private theorem ridx29 (i : Fin 50000) (j : Fin 256) (k : Fin 128) : ridx_main_v29 (ix2 i j) k = ix2 k j :=
  funext fun a => Fin.ext (by match a with | ⟨0, _⟩ => rfl | ⟨1, _⟩ => rfl)

/-- The degree, broadcast along the 128 feature columns, is read at the row. -/
private theorem deg21 (i : Fin 50000) (k : Fin 128) : idx_main_v20 (idx_main_v21 (ix2 i k)) = ix1 i :=
  funext fun a => Fin.ext (by match a with | ⟨0, _⟩ => rfl)

/-- The layer-1 bias, broadcast down the rows, is read at the column. -/
private theorem bias26 (i : Fin 50000) (j : Fin 256) : idx_main_v25 (idx_main_v26 (ix2 i j)) = ix1 j :=
  funext fun a => Fin.ext (by match a with | ⟨0, _⟩ => rfl)

/-! ## Layer 1 -/

/-- The layer-1 mean at row `i`, column `k`: the neighbour sum divided by the degree of the row. -/
private theorem mean1_at (i : Fin 50000) (k : Fin 128) :
    val_main_v22 (F := Ideal) x0 x1 (ix2 i k)
      = Ideal.div (val_main_v13 (F := Ideal) x0 x1 (ix2 i k)) (val_main_v19 (F := Ideal) x1 (ix1 i)) := by
  rw [val_main_v22_apply, val_main_v21_apply, val_main_v20_apply, deg21, Ideal.hostDivf_def]

/-- The reference's layer-1 array is `Spec.hiddenR` of its own neighbour sum, degree and transposed weights. -/
theorem hidden_eq : val_main_v31 (F := Ideal) x0 x1 x2 x3 x4
    = Cert.Spec.hiddenR (val_main_v13 (F := Ideal) x0 x1) (val_main_v19 (F := Ideal) x1) x0
        (val_main_v23 (F := Ideal) x2) x3 (val_main_v28 (F := Ideal) x4) := by
  funext y
  obtain ⟨i, j, rfl⟩ : ∃ (i : Fin 50000) (j : Fin 256), y = ix2 i j := ⟨y 0, y 1, eq_ix2 y⟩
  rw [val_main_v31_apply, val_main_v30_apply, val_main_v27_apply, val_main_v24_apply, val_main_v29_apply,
    val_main_v26_apply, val_main_v25_apply, val_main_call0_v0_apply, val_main_call0_cst_apply]
  simp only [lidx24, ridx24, lidx29, ridx29, bias26, mean1_at, Ideal.addf_def, Ideal.maximumf_def, Ideal.ofBits_def,
    Ideal.ofBits_zero_f32]
  rfl

/-! ## The degree -/

/-- The degree is computed twice by the reference, by the same operations. -/
theorem deg_eq : val_main_v47 (F := Ideal) x1 = val_main_v19 (F := Ideal) x1 := by
  unfold val_main_v47 val_main_v46 val_main_cst_9 val_main_v45 val_main_v44 val_main_v43 val_main_cst_8 val_main_v42
    val_main_cst_7 val_main_v19 val_main_v18 val_main_cst_3 val_main_v17 val_main_v16 val_main_v15 val_main_cst_2
    val_main_v14 val_main_cst_1
  rfl

/-! ## Layer 2 -/

private theorem lidx52 (i : Fin 50000) (j : Fin 40) (k : Fin 256) : lidx_main_v52 (ix2 i j) k = ix2 i k :=
  funext fun a => Fin.ext (by match a with | ⟨0, _⟩ => rfl | ⟨1, _⟩ => rfl)

private theorem ridx52 (i : Fin 50000) (j : Fin 40) (k : Fin 256) : ridx_main_v52 (ix2 i j) k = ix2 k j :=
  funext fun a => Fin.ext (by match a with | ⟨0, _⟩ => rfl | ⟨1, _⟩ => rfl)

private theorem lidx57 (i : Fin 50000) (j : Fin 40) (k : Fin 256) : lidx_main_v57 (ix2 i j) k = ix2 i k :=
  funext fun a => Fin.ext (by match a with | ⟨0, _⟩ => rfl | ⟨1, _⟩ => rfl)

private theorem ridx57 (i : Fin 50000) (j : Fin 40) (k : Fin 256) : ridx_main_v57 (ix2 i j) k = ix2 k j :=
  funext fun a => Fin.ext (by match a with | ⟨0, _⟩ => rfl | ⟨1, _⟩ => rfl)

/-- The degree, broadcast along the 256 hidden columns, is read at the row. -/
private theorem deg49 (i : Fin 50000) (k : Fin 256) : idx_main_v48 (idx_main_v49 (ix2 i k)) = ix1 i :=
  funext fun a => Fin.ext (by match a with | ⟨0, _⟩ => rfl)

/-- The layer-2 bias, broadcast down the rows, is read at the column. -/
private theorem bias54 (i : Fin 50000) (j : Fin 40) : idx_main_v53 (idx_main_v54 (ix2 i j)) = ix1 j :=
  funext fun a => Fin.ext (by match a with | ⟨0, _⟩ => rfl)

/-- The layer-2 mean at row `i`, column `k`: the neighbour sum of the hidden rows divided by the degree of the row. -/
private theorem mean2_at (i : Fin 50000) (k : Fin 256) :
    val_main_v50 (F := Ideal) x0 x1 x2 x3 x4 (ix2 i k)
      = Ideal.div (val_main_v41 (F := Ideal) x0 x1 x2 x3 x4 (ix2 i k)) (val_main_v47 (F := Ideal) x1 (ix1 i)) := by
  rw [val_main_v50_apply, val_main_v49_apply, val_main_v48_apply, deg49, Ideal.hostDivf_def]

/-- The reference's class scores, entry by entry. -/
private theorem logit_at (i : Fin 50000) (j : Fin 40) :
    val_main_v58 (F := Ideal) x0 x1 x2 x3 x4 x5 x6 x7 (ix2 i j)
      = Cert.Spec.logitRE (val_main_v41 (F := Ideal) x0 x1 x2 x3 x4) (val_main_v47 (F := Ideal) x1)
          (val_main_v31 (F := Ideal) x0 x1 x2 x3 x4) (val_main_v51 (F := Ideal) x5) x6 (val_main_v56 (F := Ideal) x7) i j := by
  rw [val_main_v58_apply, val_main_v55_apply, val_main_v52_apply, val_main_v57_apply, val_main_v54_apply,
    val_main_v53_apply]
  simp only [lidx52, ridx52, lidx57, ridx57, bias54, mean2_at, Ideal.addf_def]
  rfl

/-! ## The row maximum -/

/-- Minus infinity is the neutral element of the maximum of extended reals. -/
private theorem max_negInf (y : EReal) : max (Ideal.ofBits .f32 0xFF800000#32) y = y := by
  simp [Ideal.ofBits, Ideal.ieee]

/-- A row index of a 50000 × 40 array with the column `k` put back is the entry (i, k). -/
private theorem lift_row (h : S50000x40.Reduces [1] S50000) (i : Fin 50000) (k : Fin 40) :
    h.lift (ix1 i) k = ix2 i k := by
  funext c; apply Fin.ext
  fin_cases c <;> rfl

/-- The reduction of a 50000 × 40 array along its rows by the maximum, from minus infinity, is at row `i` the fold of
    the maximum over the 40 entries of that row. -/
private theorem rowMax_reduce (L : S50000x40.Idx → Ideal .f32) (i : Fin 50000) :
    Host.reduce (FloatOps.maximumf (F := Ideal) (φ := .f32)) L (val_main_call1_cst (F := Ideal))
        reducesTo_S50000x40_S50000_d1 h_S_ (ix1 i)
      = Cert.Spec.rowMax fun j => L (ix2 i j) := by
  have h : S50000x40.Reduces [1] S50000 := by decide
  rw [Host.reduce_eq_fold_single FloatOps.maximumf L _ reducesTo_S50000x40_S50000_d1 h h_S_]
  have hf : (L ∘ h.lift (ix1 i)) = fun k : Fin 40 => L (ix2 i k) := funext fun k => congrArg L (lift_row h i k)
  unfold Cert.Spec.rowMax
  exact congrArg (fun f => Finset.fold max (Ideal.ofBits .f32 0xFF800000#32) f (Finset.univ : Finset (Fin 40))) hf

/-! ## The log-softmax of the rows -/

/-- The row maximum, broadcast along the 40 classes, is read at the row. -/
private theorem rowOf4 (i : Fin 50000) (j : Fin 40) : idx_main_call1_v3 (idx_main_call1_v4 (ix2 i j)) = ix1 i :=
  funext fun a => Fin.ext (by match a with | ⟨0, _⟩ => rfl)

/-- The logarithm of the row sum, broadcast along the 40 classes, is read at the row. -/
private theorem rowOf10 (i : Fin 50000) (j : Fin 40) : idx_main_call1_v8 (idx_main_call1_v10 (ix2 i j)) = ix1 i :=
  funext fun a => Fin.ext (by match a with | ⟨0, _⟩ => rfl)

/-- The row sum reads the entry (i, k). -/
private theorem sumIdx7 (i : Fin 50000) (k : Fin 40) : idx_main_call1_v7 (ix1 i) k = ix2 i k :=
  funext fun a => Fin.ext (by match a with | ⟨0, _⟩ => rfl | ⟨1, _⟩ => rfl)

/-- The reference's row maximum is the fold of the maximum over the row's 40 scores. -/
private theorem refMax_at (i : Fin 50000) :
    val_main_call1_v2 (F := Ideal) x0 x1 x2 x3 x4 x5 x6 x7 (ix1 i)
      = Cert.Spec.rowMax fun j => val_main_v58 (F := Ideal) x0 x1 x2 x3 x4 x5 x6 x7 (ix2 i j) := by
  rw [val_main_call1_v2_apply, val_main_call1_v1_apply, val_main_call1_cst_0_apply, Ideal.maximumf_def, Ideal.ofBits_def,
    max_negInf]
  unfold val_main_call1_v0
  exact rowMax_reduce _ i

/-- The shifted score: the score less its row's maximum. -/
private theorem shift_at (i : Fin 50000) (j : Fin 40) :
    val_main_call1_v5 (F := Ideal) x0 x1 x2 x3 x4 x5 x6 x7 (ix2 i j)
      = val_main_v58 (F := Ideal) x0 x1 x2 x3 x4 x5 x6 x7 (ix2 i j) - Cert.Spec.rowMax fun j' => val_main_v58 (F := Ideal) x0 x1 x2 x3 x4 x5 x6 x7 (ix2 i j') := by
  rw [val_main_call1_v5_apply, val_main_call1_v4_apply, val_main_call1_v3_apply, rowOf4, refMax_at, Ideal.subf_def]

/-- The row sum of the exponentials of the shifted scores. -/
private theorem sumExp_at (i : Fin 50000) :
    val_main_call1_v7 (F := Ideal) x0 x1 x2 x3 x4 x5 x6 x7 (ix1 i)
      = ∑ k : Fin 40, Ideal.exp (val_main_v58 (F := Ideal) x0 x1 x2 x3 x4 x5 x6 x7 (ix2 i k) - Cert.Spec.rowMax fun j' => val_main_v58 (F := Ideal) x0 x1 x2 x3 x4 x5 x6 x7 (ix2 i j')) := by
  rw [val_main_call1_v7_apply, val_main_call1_cst_1_apply, Ideal.ofBits_def, Ideal.ofBits_zero_f32, zero_add]
  refine Finset.sum_congr rfl fun k _ => ?_
  rw [sumIdx7, val_main_call1_v6_apply, shift_at, Ideal.hostUnary_exp_def]

/-- The reference's result at (i, j) is the log-softmax of row `i` of its scores at class `j`. -/
private theorem lsm_at (i : Fin 50000) (j : Fin 40) :
    val_main_v59 (F := Ideal) x0 x1 x2 x3 x4 x5 x6 x7 (ix2 i j)
      = Cert.Spec.lsmE (fun j' => val_main_v58 (F := Ideal) x0 x1 x2 x3 x4 x5 x6 x7 (ix2 i j')) j := by
  rw [val_main_v59_apply, val_main_call1_v10_apply, val_main_call1_v9_apply, val_main_call1_v8_apply, rowOf10, sumExp_at,
    shift_at, Ideal.subf_def, Ideal.hostUnary_log_def]
  rfl

/-- The reference's result is `Spec.outR` of its own layer-2 neighbour sum, degree, layer-1 array and transposed weights. -/
theorem out_eq : val_main_v59 (F := Ideal) x0 x1 x2 x3 x4 x5 x6 x7
    = Cert.Spec.outR (val_main_v41 (F := Ideal) x0 x1 x2 x3 x4) (val_main_v19 (F := Ideal) x1)
        (val_main_v31 (F := Ideal) x0 x1 x2 x3 x4) (val_main_v51 (F := Ideal) x5) x6 (val_main_v56 (F := Ideal) x7) := by
  funext y
  obtain ⟨i, j, rfl⟩ : ∃ (i : Fin 50000) (j : Fin 40), y = ix2 i j := ⟨y 0, y 1, eq_ix2 y⟩
  have e : (fun j' => val_main_v58 (F := Ideal) x0 x1 x2 x3 x4 x5 x6 x7 (ix2 i j'))
      = fun j' => Cert.Spec.logitRE (val_main_v41 (F := Ideal) x0 x1 x2 x3 x4) (val_main_v47 (F := Ideal) x1)
          (val_main_v31 (F := Ideal) x0 x1 x2 x3 x4) (val_main_v51 (F := Ideal) x5) x6 (val_main_v56 (F := Ideal) x7) i j' :=
    funext fun j' => logit_at x0 x1 x2 x3 x4 x5 x6 x7 i j'
  rw [lsm_at, e, deg_eq]
  rfl

end Cert.ReferenceIdeal.RefValue

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Bridge.lean ====
import proofs.«414649_j38156489457766_3_alg».proof.Proof.Spec
import proofs.«414649_j38156489457766_3_alg».proof.Proof.LibRealSums

/-! # The two forms compute one function

Layer 1: the reference divides the summed neighbour features by the degree `c i`, the kernel multiplies them by the
reciprocal `1 / c i`; for a non-zero degree these are one extended real (`hiddenR_eq_hidden`), whatever the features.

Layer 2: the reference sums the hidden rows of a node's in-neighbours, divides by the degree and multiplies by the left
weights; the kernel multiplies every hidden row by the left weights first (`Spec.proj`), sums the 40-wide products over
the in-neighbours and scales by the reciprocal degree. Averaging commutes with the linear map, PROVIDED the hidden
entries and the weights are real numbers (`logitR_eq_logit`); the hidden entries are real when the inputs are
(`hidden_isReal`). The log-softmax is then one function applied to equal rows (`outR_eq_out`). -/

open scoped BigOperators

noncomputable section

namespace Cert.Spec

open Idealize.ShloMosaic Idealize.ShloMosaic.ValueIdx Idealize.ShloMosaic.RealSums

/-- Layer 1: dividing by a non-zero degree is multiplying by its reciprocal. -/
theorem hiddenR_eq_hidden (S1 : Arr2 50000 128) (c : Arr1 50000) (inv : Arr2 50000 1) (X : Arr2 50000 128)
    (WlT : Arr2 128 256) (bl : Arr1 256) (WrT : Arr2 128 256)
    (hc : ∀ i : Fin 50000, c (ix1 i) ≠ 0)
    (hinv : ∀ i : Fin 50000, inv (ix2 i (0 : Fin 1)) = Ideal.div 1 (c (ix1 i))) :
    hiddenR S1 c X WlT bl WrT = hidden S1 inv X WlT bl WrT := by
  funext y
  obtain ⟨i, j, rfl⟩ : ∃ (i : Fin 50000) (j : Fin 256), y = ix2 i j := ⟨y 0, y 1, eq_ix2 y⟩
  show hiddenRE S1 c X WlT bl WrT i j = hiddenE S1 inv X WlT bl WrT i j
  unfold hiddenRE hiddenE
  congr 3
  refine Finset.sum_congr rfl fun k _ => ?_
  rw [div_eq_mul_div_one _ (hc i), hinv]

/-- Layer 1 of real inputs is real. -/
theorem hidden_isReal (S1 : Arr2 50000 128) (inv : Arr2 50000 1) (X : Arr2 50000 128)
    (WlT : Arr2 128 256) (bl : Arr1 256) (WrT : Arr2 128 256)
    (hS : ∀ y, IsReal (S1 y)) (hi : ∀ y, IsReal (inv y)) (hX : ∀ y, IsReal (X y)) (hWl : ∀ y, IsReal (WlT y))
    (hb : ∀ y, IsReal (bl y)) (hWr : ∀ y, IsReal (WrT y)) (y : (⟨2, ![50000, 256]⟩ : Shape).Idx) :
    IsReal (hidden S1 inv X WlT bl WrT y) := by
  obtain ⟨i, j, rfl⟩ : ∃ (i : Fin 50000) (j : Fin 256), y = ix2 i j := ⟨y 0, y 1, eq_ix2 y⟩
  show IsReal (hiddenE S1 inv X WlT bl WrT i j)
  unfold hiddenE
  refine IsReal.max (IsReal.add (IsReal.add (IsReal.sum _ _ fun k _ => ?_) (hb _)) (IsReal.sum _ _ fun k _ => ?_)) IsReal.zero
  · exact ((hS _).mul (hi _)).mul (hWl _)
  · exact (hX _).mul (hWr _)

/-- Layer 2: the average of the projections is the projection of the average, among real numbers. -/
theorem logitR_eq_logit (H : Arr2 50000 256) (hH : ∀ y, IsReal (H y)) (WlT : Arr2 256 40) (hW : ∀ y, IsReal (WlT y))
    (c : Arr1 50000) (hc : ∀ i : Fin 50000, c (ix1 i) ≠ 0)
    (inv : Arr2 50000 1) (hinv : ∀ i : Fin 50000, inv (ix2 i (0 : Fin 1)) = Ideal.div 1 (c (ix1 i)))
    (S2 : Arr2 50000 256) (A2 : Arr2 50000 40) (E : Fin 50000 → Finset (Fin 800000)) (s : Fin 800000 → Fin 50000)
    (hS2 : ∀ (i : Fin 50000) (k : Fin 256), S2 (ix2 i k) = ∑ e ∈ E i, H (ix2 (s e) k))
    (hA2 : ∀ (i : Fin 50000) (j : Fin 40), A2 (ix2 i j) = ∑ e ∈ E i, projE H WlT (s e) j)
    (bl : Arr1 40) (WrT : Arr2 256 40) (i : Fin 50000) (j : Fin 40) :
    logitRE S2 c H WlT bl WrT i j = logitE A2 inv H WrT bl i j := by
  unfold logitRE logitE
  congr 2
  rw [hA2, hinv]
  simp only [hS2]
  unfold projE
  exact sum_div_mul_eq (E i) (fun e k => H (ix2 (s e) k)) (fun k => WlT (ix2 k j)) (c (ix1 i))
    (fun e k => hH _) (fun k => hW _) (hc i)

/-- The results: one log-softmax of equal rows. -/
theorem outR_eq_out (H : Arr2 50000 256) (hH : ∀ y, IsReal (H y)) (WlT : Arr2 256 40) (hW : ∀ y, IsReal (WlT y))
    (c : Arr1 50000) (hc : ∀ i : Fin 50000, c (ix1 i) ≠ 0)
    (inv : Arr2 50000 1) (hinv : ∀ i : Fin 50000, inv (ix2 i (0 : Fin 1)) = Ideal.div 1 (c (ix1 i)))
    (S2 : Arr2 50000 256) (A2 : Arr2 50000 40) (E : Fin 50000 → Finset (Fin 800000)) (s : Fin 800000 → Fin 50000)
    (hS2 : ∀ (i : Fin 50000) (k : Fin 256), S2 (ix2 i k) = ∑ e ∈ E i, H (ix2 (s e) k))
    (hA2 : ∀ (i : Fin 50000) (j : Fin 40), A2 (ix2 i j) = ∑ e ∈ E i, projE H WlT (s e) j)
    (bl : Arr1 40) (WrT : Arr2 256 40) :
    outR S2 c H WlT bl WrT = out A2 inv H WrT bl := by
  funext y
  obtain ⟨i, q, rfl⟩ : ∃ (i : Fin 50000) (q : Fin 40), y = ix2 i q := ⟨y 0, y 1, eq_ix2 y⟩
  show lsmE (fun j => logitRE S2 c H WlT bl WrT i j) q = lsmE (fun j => logitE A2 inv H WrT bl i j) q
  congr 1
  funext j
  exact logitR_eq_logit H hH WlT hW c hc inv hinv S2 A2 E s hS2 hA2 bl WrT i j

end Cert.Spec

end
-- ==== Proof.LibScatterAddRows.lean ====
import Idealize.ShloMosaic.PureOps.Ideal
import Idealize.ShloMosaic.PureOps.Contract
import Idealize.ShloMosaic.Lib.ValueIdx

/-! # A float scatter-add of rows, read at an index

The accumulating float scatter `Host.scatterAdd d x idx upd` at the ideal values is, at every operand element, that
element plus the sum of the update elements that land on it. Worked out here, at any extents, for ROWS added into a
rank-2 operand: operand `[N, C]`, scatter indices `[K, 1]` (the index vector on axis 1), updates `[K, C]`; update row `e`
is added, whole, to the operand row named by the scatter index `idx[e, 0]` read as a SIGNED integer, and is dropped when
that integer is not a row of the operand (jax's `.at[rows].add(updates)`, `jax.ops.segment_sum`). So operand entry
`(i, j)` receives exactly the entries `(e, j)` of the update rows `e` whose scatter index is `i`
(`hostScatterAdd_rows_apply`). Stated at the literal dimension-number record `rowAddDims` and for ANY record with these
fields (the field equations are `rfl` at a printed record). -/

open scoped BigOperators

namespace Idealize.ShloMosaic.ScatterAddRows

open Idealize.ShloMosaic Idealize.ShloMosaic.ValueIdx

/-- The dimension numbers of a row scatter: operand `[N, C]`, scatter indices `[K, 1]`, updates `[K, C]`; the update's
    axis 1 is its window axis and goes to the operand's axis 1, the operand's axis 0 is the inserted (scattered) axis. -/
abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

/-- On the row axis the window of update `(e, b)` starts at the scatter index `idx[e, 0]`, read signed. -/
theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis the window starts at `0`: the scatter indices do not name that axis. -/
theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

/-- The operand's axes that are not inserted: the column axis alone. -/
theorem sKept_eq : (rowAddDims N K C wf).sKept = [(1 : Fin 2)] := rfl

/-- The row axis is inserted: no window coordinate on it. -/
theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

/-- On the column axis the window coordinate is the update's own column. -/
theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

/-- WHERE AN UPDATE LANDS: update `(e, b)` lands on operand entry `(i, j)` exactly when its scatter index is row `i`
    and its column is `j`. -/
theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

/-- THE ROW SCATTER-ADD AT THE LITERAL RECORD, READ AT `(i, j)`: the operand's entry plus the sum, over the update rows
    `e` whose scatter index is `i`, of the update's entry `(e, j)`. -/
theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

/-- THE ROW SCATTER-ADD AT ANY RECORD WITH THESE FIELDS, READ AT `(i, j)`: a record is its fields, so it is the literal
    one. -/
theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.NeighbourSum.lean ====
import proofs.«414649_j38156489457766_3_alg».proof.Proof.LibScatterAddRows
import proofs.«414649_j38156489457766_3_alg».proof.Proof.LibGatherRow
import Idealize.ShloMosaic.PureOps.Contract

/-! # The sum of a table's rows over a node's in-neighbours

Both programs build a node's neighbour sum the same way: gather the table's rows at the edges' source nodes, then
scatter-add the gathered rows into a zero array at the edges' destination nodes. Entry `(i, j)` of the result is the sum,
over the edges `e` whose destination index is exactly `i` (`landing`), of the table's entry `(srcRow e, j)`, the source
index of `e` clamped into the table (`srcRow`). The set of edges and the source rows depend only on the two index arrays,
not on the table's width. -/

open scoped BigOperators

noncomputable section

namespace Idealize.ShloMosaic.NeighbourSum

open Idealize.ShloMosaic Idealize.ShloMosaic.ValueIdx

/-- The edges that land on node `i`: the destination index, read signed, is `i`. -/
def landing {N K : Nat} (dstI : IVec ⟨2, ![K, 1]⟩ 32) (i : Fin N) : Finset (Fin K) :=
  Finset.univ.filter (fun e : Fin K => (dstI (ix2 e (0 : Fin 1))).toInt = (i.val : Int))

/-- The table row edge `e` reads: its source index, read signed and clamped into the table. -/
def srcRow {N K : Nat} (hN : 0 < N) (srcI : IVec ⟨2, ![K, 1]⟩ 32) (e : Fin K) : Fin N :=
  ⟨min (srcI (ix2 e (0 : Fin 1))).toInt.toNat (N - 1), by omega⟩

/-- THE NEIGHBOUR SUM AT AN ENTRY. -/
theorem segsum_apply {N K C : Nat} (hN : 0 < N)
    (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (g : GatherDims ⟨2, ![N, C]⟩ ⟨2, ![K, 1]⟩ ⟨2, ![K, C]⟩)
    (go : g.offsetDims = [1]) (gc : g.collapsedSliceDims = [0]) (gb : g.operandBatchingDims = [])
    (gsb : g.startIndicesBatchingDims = []) (gm : g.startIndexMap = [0]) (gv : g.indexVectorDim = 1)
    (gs : g.sliceSizes = ![1, C])
    (Z : (⟨2, ![N, C]⟩ : Shape).Idx → EReal) (hZ : ∀ y, Z y = 0)
    (dstI srcI : IVec ⟨2, ![K, 1]⟩ 32) (f : (⟨2, ![N, C]⟩ : Shape).Idx → EReal) (i : Fin N) (j : Fin C) :
    Host.scatterAdd (F := Ideal) (φ := .f32) d Z dstI (Host.gather g f srcI) (ix2 i j)
      = ∑ e ∈ landing dstI i, f (ix2 (srcRow hN srcI e) j) := by
  show Ideal.hostScatterAdd d Z dstI (Host.gather g f srcI) (ix2 i j) = _
  rw [ScatterAddRows.hostScatterAdd_rows_apply d hu hi hs hv, hZ, zero_add]
  refine Finset.sum_congr rfl fun e _ => ?_
  exact GatherRow.gather_rowTake_apply hN g go gc gb gsb gm gv gs f srcI e j

end Idealize.ShloMosaic.NeighbourSum

end
-- ==== Proof.Equal.lean ====
import proofs.«414649_j38156489457766_3_alg».proof.Proof.RefValue
import proofs.«414649_j38156489457766_3_alg».proof.Proof.KernelValue
import proofs.«414649_j38156489457766_3_alg».proof.Proof.Bridge
import proofs.«414649_j38156489457766_3_alg».proof.Proof.NeighbourSum
import Idealize.ShloMosaic.Lib.IdealHost
import Idealize.ShloMosaic.Lib.Pipeline.Value

/-! # The reference's result is the kernel program's

Both results are functions of the same eight arrays. The two programs make the edge-index columns, the degree and the
layer-1 neighbour sum by the same host operations, so those are the same terms. What differs is read through the
specification: layer 1 divides by the degree where the kernel multiplies by its reciprocal (the degree is at least one,
so never zero); layer 2 averages hidden rows and then applies the left weights where the kernel applies them first — one
function when the hidden entries and the weights are real numbers, which the precondition gives: a neighbour sum of real
entries is real, the reciprocal of a non-zero degree is real, and layer 1 of real arrays is real. -/

set_option maxRecDepth 16384
set_option Elab.async false

open scoped BigOperators

noncomputable section

namespace Cert.Proof.Equal

open Idealize.ShloMosaic Idealize.ShloMosaic.ValueIdx Idealize.ShloMosaic.RealSums Idealize.ShloMosaic.NeighbourSum
open Cert.KernelIdeal.KValue

variable (x0 : Spec.Arr2 50000 128) (x1 : IVec ⟨2, ![2, 800000]⟩ 32) (x2 : Spec.Arr2 256 128) (x3 : Spec.Arr1 256)
  (x4 : Spec.Arr2 256 128) (x5 : Spec.Arr2 40 256) (x6 : Spec.Arr1 40) (x7 : Spec.Arr2 40 256)

/-! ## The shared host terms: the reference's stages are the kernel program's -/

theorem ref_src9 : Cert.ReferenceIdeal.ReadP.val_main_v9 (F := Ideal) x1 = srcCol (eSrc x1) := by
  unfold Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_c_0 Cert.ReferenceIdeal.ReadP.val_main_v5
    Cert.ReferenceIdeal.ReadP.val_main_v4 Cert.ReferenceIdeal.ReadP.val_main_c Cert.ReferenceIdeal.ReadP.val_main_v1 Cert.ReferenceIdeal.ReadP.val_main_v0 srcCol eSrc
  rfl
theorem ref_src37 : Cert.ReferenceIdeal.ReadP.val_main_v37 (F := Ideal) x1 = srcCol (eSrc x1) := by
  unfold Cert.ReferenceIdeal.ReadP.val_main_v37 Cert.ReferenceIdeal.ReadP.val_main_v36 Cert.ReferenceIdeal.ReadP.val_main_v35 Cert.ReferenceIdeal.ReadP.val_main_v34 Cert.ReferenceIdeal.ReadP.val_main_c_5 Cert.ReferenceIdeal.ReadP.val_main_v33
    Cert.ReferenceIdeal.ReadP.val_main_v32 Cert.ReferenceIdeal.ReadP.val_main_c_4 Cert.ReferenceIdeal.ReadP.val_main_v1 Cert.ReferenceIdeal.ReadP.val_main_v0 srcCol eSrc
  rfl
theorem ref_dst12 : Cert.ReferenceIdeal.ReadP.val_main_v12 (F := Ideal) x1 = dstCol (eDst x1) := by
  unfold Cert.ReferenceIdeal.ReadP.val_main_v12 Cert.ReferenceIdeal.ReadP.val_main_v3 Cert.ReferenceIdeal.ReadP.val_main_v2 dstCol eDst
  rfl
theorem ref_dst16 : Cert.ReferenceIdeal.ReadP.val_main_v16 (F := Ideal) x1 = dstCol (eDst x1) := by
  unfold Cert.ReferenceIdeal.ReadP.val_main_v16 Cert.ReferenceIdeal.ReadP.val_main_v3 Cert.ReferenceIdeal.ReadP.val_main_v2 dstCol eDst
  rfl
theorem ref_dst40 : Cert.ReferenceIdeal.ReadP.val_main_v40 (F := Ideal) x1 = dstCol (eDst x1) := by
  unfold Cert.ReferenceIdeal.ReadP.val_main_v40 Cert.ReferenceIdeal.ReadP.val_main_v3 Cert.ReferenceIdeal.ReadP.val_main_v2 dstCol eDst
  rfl

/-- The reference's degree is the kernel program's. -/
theorem ref_deg : Cert.ReferenceIdeal.ReadP.val_main_v19 (F := Ideal) x1 = deg (eDst x1) := by
  unfold Cert.ReferenceIdeal.ReadP.val_main_v19 Cert.ReferenceIdeal.ReadP.val_main_v18 Cert.ReferenceIdeal.ReadP.val_main_cst_3 Cert.ReferenceIdeal.ReadP.val_main_v17 Cert.ReferenceIdeal.ReadP.val_main_v15 Cert.ReferenceIdeal.ReadP.val_main_cst_2
    Cert.ReferenceIdeal.ReadP.val_main_v14 Cert.ReferenceIdeal.ReadP.val_main_cst_1
  rw [ref_dst16]
  rfl

/-- The reference's layer-1 neighbour sum is the kernel program's. -/
theorem ref_seg128 : Cert.ReferenceIdeal.ReadP.val_main_v13 (F := Ideal) x0 x1 = seg128 x0 (eSrc x1) (eDst x1) := by
  unfold Cert.ReferenceIdeal.ReadP.val_main_v13 Cert.ReferenceIdeal.ReadP.val_main_v11 Cert.ReferenceIdeal.ReadP.val_main_cst Cert.ReferenceIdeal.ReadP.val_main_v10
  rw [ref_dst12, ref_src9]
  rfl

/-- The transposed weights: the kernel program's change of float format is the identity. -/
theorem ref_w23 : Cert.ReferenceIdeal.ReadP.val_main_v23 (F := Ideal) x2 = wT128 x2 := rfl
theorem ref_w28 : Cert.ReferenceIdeal.ReadP.val_main_v28 (F := Ideal) x4 = wT128 x4 := rfl
theorem ref_w51 : Cert.ReferenceIdeal.ReadP.val_main_v51 (F := Ideal) x5 = wT40 x5 := rfl
theorem ref_w56 : Cert.ReferenceIdeal.ReadP.val_main_v56 (F := Ideal) x7 = wT40 x7 := rfl

/-- The reference's layer-2 neighbour sum, as the neighbour sum of its layer-1 array. -/
theorem ref_seg256 : Cert.ReferenceIdeal.ReadP.val_main_v41 (F := Ideal) x0 x1 x2 x3 x4
    = Host.scatterAdd (F := Ideal) Cert.ReferenceIdeal.scatter_S50000x256_S800000x1_S800000x256_1_0_0_1
        (broadcastInDim Cert.ReferenceIdeal.S50000x256 ![] Cert.ReferenceIdeal.Gen.bcast_S_S50000x256 (constant (F := Ideal) Cert.ReferenceIdeal.S_ .f32 0x00000000#32))
        (dstCol (eDst x1))
        (Host.gather Cert.ReferenceIdeal.gather_S50000x256_S800000x1_S800000x256_1_0_n_n_0_1_1256
          (Cert.ReferenceIdeal.ReadP.val_main_v31 (F := Ideal) x0 x1 x2 x3 x4) (srcCol (eSrc x1))) := by
  unfold Cert.ReferenceIdeal.ReadP.val_main_v41 Cert.ReferenceIdeal.ReadP.val_main_v39 Cert.ReferenceIdeal.ReadP.val_main_cst_6 Cert.ReferenceIdeal.ReadP.val_main_v38
  rw [ref_dst40, ref_src37]

/-! ## The degree and its reciprocal -/

/-- The degree is at least one: it is the larger of the edge count and one. -/
theorem one_le_deg (v3 : IVec Cert.KernelIdeal.S800000 32) (i : Fin 50000) : (1 : EReal) ≤ deg v3 (ix1 i) := by
  unfold deg
  rw [maximumf_apply, broadcastInDim_scalar_apply, constant_apply, Ideal.ofBits_one_f32]
  exact le_max_right _ _

theorem deg_ne_zero (v3 : IVec Cert.KernelIdeal.S800000 32) (i : Fin 50000) : deg v3 (ix1 i) ≠ 0 := by
  exact (lt_of_lt_of_le (by norm_num : (0 : EReal) < 1) (one_le_deg v3 i)).ne'

/-- The reciprocal-degree column at row `i` is `1 / degree i`. -/
theorem invCol_apply (v3 : IVec Cert.KernelIdeal.S800000 32) (i : Fin 50000) :
    invCol v3 (ix2 i (0 : Fin 1)) = Ideal.div 1 (deg v3 (ix1 i)) := by
  unfold invCol
  rw [broadcastInDim_apply _ _ _ (ix2 i (0 : Fin 1)) (ix1 i) (fun a => by
    match a with
    | ⟨0, _⟩ => rfl), hostDivf_apply, broadcastInDim_scalar_apply, constant_apply, Ideal.ofBits_one_f32]

/-! ## Real entries -/

theorem zeros_apply128 (y : Cert.KernelIdeal.S50000x128.Idx) :
    (broadcastInDim Cert.KernelIdeal.S50000x128 ![] Cert.KernelIdeal.Gen.bcast_S_S50000x128 (constant (F := Ideal) Cert.KernelIdeal.S_ .f32 0x00000000#32) : Spec.Arr2 50000 128) y = 0 := by
  rw [broadcastInDim_scalar_apply, constant_apply]
  exact Ideal.ofBits_zero_f32

theorem zeros_apply40 (y : Cert.KernelIdeal.S50000x40.Idx) :
    (broadcastInDim Cert.KernelIdeal.S50000x40 ![] Cert.KernelIdeal.Gen.bcast_S_S50000x40 (constant (F := Ideal) Cert.KernelIdeal.S_ .f32 0x00000000#32) : Spec.Arr2 50000 40) y = 0 := by
  rw [broadcastInDim_scalar_apply, constant_apply]
  exact Ideal.ofBits_zero_f32

theorem zeros_apply256 (y : Cert.ReferenceIdeal.S50000x256.Idx) :
    (broadcastInDim Cert.ReferenceIdeal.S50000x256 ![] Cert.ReferenceIdeal.Gen.bcast_S_S50000x256 (constant (F := Ideal) Cert.ReferenceIdeal.S_ .f32 0x00000000#32) : Spec.Arr2 50000 256) y = 0 := by
  rw [broadcastInDim_scalar_apply, constant_apply]
  exact Ideal.ofBits_zero_f32

/-- The layer-1 neighbour sum at an entry. -/
theorem seg128_apply (v1 v3 : IVec Cert.KernelIdeal.S800000 32) (i : Fin 50000) (j : Fin 128) :
    seg128 x0 v1 v3 (ix2 i j) = ∑ e ∈ landing (dstCol v3) i, x0 (ix2 (srcRow (by decide : 0 < 50000) (srcCol v1) e) j) := by
  unfold seg128
  exact segsum_apply (by decide) _ rfl rfl rfl rfl _ rfl rfl rfl rfl rfl rfl rfl _ zeros_apply128 _ _ x0 i j

/-- The kernel program's layer-2 neighbour sum at an entry. -/
theorem seg40_apply (f : Spec.Arr2 50000 40) (v1 v3 : IVec Cert.KernelIdeal.S800000 32) (i : Fin 50000) (j : Fin 40) :
    seg40 f v1 v3 (ix2 i j) = ∑ e ∈ landing (dstCol v3) i, f (ix2 (srcRow (by decide : 0 < 50000) (srcCol v1) e) j) := by
  unfold seg40
  exact segsum_apply (by decide) _ rfl rfl rfl rfl _ rfl rfl rfl rfl rfl rfl rfl _ zeros_apply40 _ _ f i j

theorem seg128_isReal (hx0 : ∀ y, IsReal (x0 y)) (v1 v3 : IVec Cert.KernelIdeal.S800000 32) (y : Cert.KernelIdeal.S50000x128.Idx) :
    IsReal (seg128 x0 v1 v3 y) := by
  obtain ⟨i, j, rfl⟩ : ∃ (i : Fin 50000) (j : Fin 128), y = ix2 i j := ⟨y 0, y 1, eq_ix2 y⟩
  rw [seg128_apply]
  exact IsReal.sum _ _ fun e _ => hx0 _

theorem invCol_isReal (v3 : IVec Cert.KernelIdeal.S800000 32) (y : Cert.KernelIdeal.S50000x1.Idx) : IsReal (invCol v3 y) := by
  obtain ⟨i, j, rfl⟩ : ∃ (i : Fin 50000) (j : Fin 1), y = ix2 i j := ⟨y 0, y 1, eq_ix2 y⟩
  obtain rfl : j = 0 := Subsingleton.elim _ _
  rw [invCol_apply]
  exact IsReal.div ⟨1, rfl⟩ (deg_ne_zero v3 i)

theorem wT128_isReal (w : Spec.Arr2 256 128) (hw : ∀ y, IsReal (w y)) (y : Cert.KernelIdeal.S128x256.Idx) : IsReal (wT128 w y) := by
  unfold wT128 transpose
  exact hw _

theorem wT40_isReal (w : Spec.Arr2 40 256) (hw : ∀ y, IsReal (w y)) (y : Cert.KernelIdeal.S256x40.Idx) : IsReal (wT40 w y) := by
  unfold wT40 transpose
  exact hw _

/-- The layer-1 array of real arguments is real. -/
theorem hid_isReal (hx0 : ∀ y, IsReal (x0 y)) (hx2 : ∀ y, IsReal (x2 y)) (hx3 : ∀ y, IsReal (x3 y)) (hx4 : ∀ y, IsReal (x4 y))
    (y : (⟨2, ![50000, 256]⟩ : Shape).Idx) : IsReal (hid x0 x1 x2 x3 x4 y) := by
  unfold hid
  exact Spec.hidden_isReal _ _ _ _ _ _ (seg128_isReal x0 hx0 _ _) (invCol_isReal _) hx0 (wT128_isReal x2 hx2) hx3
    (wT128_isReal x4 hx4) y

/-! ## The two results -/

/-- The reference's layer-1 array is the kernel program's. -/
theorem ref_hid : Cert.ReferenceIdeal.ReadP.val_main_v31 (F := Ideal) x0 x1 x2 x3 x4 = hid x0 x1 x2 x3 x4 := by
  rw [Cert.ReferenceIdeal.RefValue.hidden_eq, ref_seg128, ref_deg, ref_w23, ref_w28]
  unfold hid
  exact Spec.hiddenR_eq_hidden _ _ _ _ _ _ _ (deg_ne_zero _) (invCol_apply _)

/-- THE RESULTS AGREE on real arguments. -/
theorem result_eq (hx0 : ∀ y, IsReal (x0 y)) (hx2 : ∀ y, IsReal (x2 y)) (hx3 : ∀ y, IsReal (x3 y)) (hx4 : ∀ y, IsReal (x4 y))
    (hx5 : ∀ y, IsReal (x5 y)) :
    Cert.ReferenceIdeal.ReadP.val_main_v59 (F := Ideal) x0 x1 x2 x3 x4 x5 x6 x7 = result x0 x1 x2 x3 x4 x5 x6 x7 := by
  rw [Cert.ReferenceIdeal.RefValue.out_eq, ref_seg256, ref_hid, ref_deg, ref_w51, ref_w56]
  unfold result
  refine Spec.outR_eq_out (hid x0 x1 x2 x3 x4) (hid_isReal x0 x1 x2 x3 x4 hx0 hx2 hx3 hx4) (wT40 x5) (wT40_isReal x5 hx5)
    (deg (eDst x1)) (deg_ne_zero _) (invCol (eDst x1)) (invCol_apply _) _ _
    (fun i => landing (dstCol (eDst x1)) i) (fun e => srcRow (by decide : 0 < 50000) (srcCol (eSrc x1)) e) ?_ ?_ x6 (wT40 x7)
  · intro i k
    exact segsum_apply (by decide) _ rfl rfl rfl rfl _ rfl rfl rfl rfl rfl rfl rfl _ zeros_apply256 _ _ (hid x0 x1 x2 x3 x4) i k
  · intro i j
    exact seg40_apply _ _ _ i j

end Cert.Proof.Equal

end
-- ==== Proof.Finite.lean ====
import proofs.«414649_j38156489457766_3_alg».proof.Proof.Gen.Pre_finite_inputs
import proofs.«414649_j38156489457766_3_alg».proof.Proof.LibRealSums
import Idealize.ShloMosaic.Lib.ReduceAll
import Idealize.ShloMosaic.Lib.ValueIdx

/-! # The precondition: every float input is a real number

The printed predicate tests each float argument entry by entry, "the absolute value is below plus infinity", takes the
conjunction over all entries of the argument, and joins the seven conjunctions. On the extended reals the absolute value
`max x (-x)` of either infinity is `⊤`, so an entry that passes the test is a real number. -/

noncomputable section

namespace Cert.Pre_finite_inputs.Finite

open Cert.Pre_finite_inputs Cert.Pre_finite_inputs.Gen Idealize.ShloMosaic Idealize.ShloMosaic.RealSums

/-- An extended real whose absolute value `max x (-x)` lies strictly below `⊤` is a real number: the absolute value of
    `⊥` and of `⊤` is `⊤`. -/
theorem isReal_of_abs_lt_top (x : EReal) (h : max x (-x) < ⊤) : IsReal x := by
  induction x using EReal.rec with
  | bot => simp at h
  | top => simp at h
  | coe r => exact IsReal.coe r

/-- The 32-bit pattern with all exponent bits set, sign and significand clear, denotes plus infinity. -/
theorem ofBits_plus_inf : Ideal.ofBits .f32 0x7F800000#32 = ⊤ := by simp [Ideal.ofBits, Ideal.ieee]

/-- One entry: where "absolute value below plus infinity" holds, the entry is a real number. -/
theorem isReal_of_cmpf (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_plus_inf] at h'
  refine isReal_of_abs_lt_top x ?_
  by_contra hn
  simp [Ideal.cmp, hn] at h'

/-- One argument of any shape: where the conjunction over all entries of "absolute value below plus infinity" is 1,
    every entry is a real number. -/
theorem reals_of_reduce {s : Shape} {axes : List (Fin s.rank)}
    (hb : S_.BroadcastsInDim s (![] : Fin 0 → Fin s.rank)) (hr : s.ReducesTo axes S_) (hu : 0 < S_.numel)
    (a : FVec Ideal s .f32) (init : IVec S_ 1)
    (h : Host.reduce IntOp.andi
          (cmpf .olt (Host.absf a) (broadcastInDim s ![] hb (constant (F := Ideal) S_ .f32 0x7F800000#32)))
          init hr hu ValueIdx.ix0 = 1#1) :
    ∀ i, IsReal (a i) := by
  intro i
  haveI : Subsingleton S_.Idx := ⟨fun a b => funext fun d => d.elim0⟩
  exact isReal_of_cmpf (a i) (Host.reduce_andi_all _ init hr hu ValueIdx.ix0 h i)

/-- Where the printed predicate is all ones, every entry of every float argument is a real number. -/
theorem reals_of_fn (a0 : FVec Ideal S50000x128 .f32) (a1 : IVec S2x800000 32) (a2 : FVec Ideal S256x128 .f32)
    (a3 : FVec Ideal S256 .f32) (a4 : FVec Ideal S256x128 .f32) (a5 : FVec Ideal S40x256 .f32) (a6 : FVec Ideal S40 .f32)
    (a7 : FVec Ideal S40x256 .f32)
    (h : Cert.Pre_finite_inputs.fn (F := Ideal) a0 a1 a2 a3 a4 a5 a6 a7 = (fun _ => 1#1)) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have e := congrFun h ValueIdx.ix0
  simp only [Cert.Pre_finite_inputs.fn, Cert.Pre_finite_inputs.fn_part1, Idealize.ShloMosaic.andi,
    IntOp.andi_eq_one] at e
  obtain ⟨⟨⟨⟨⟨⟨e0, e2⟩, e3⟩, e4⟩, e5⟩, e6⟩, e7⟩ := e
  exact ⟨reals_of_reduce _ _ _ a0 _ e0, reals_of_reduce _ _ _ a2 _ e2, reals_of_reduce _ _ _ a3 _ e3,
    reals_of_reduce _ _ _ a4 _ e4, reals_of_reduce _ _ _ a5 _ e5, reals_of_reduce _ _ _ a6 _ e6,
    reals_of_reduce _ _ _ a7 _ e7⟩

end Cert.Pre_finite_inputs.Finite

end
-- ==== Proof.lean ====
/- The certificate of a two-layer neighbourhood-averaging network (mean aggregation over in-neighbours, two linear
   maps per layer, relu, log-softmax over 40 classes) on 50000 nodes and 800000 edges: the kernel program against its jnp
   reference, over the extended reals.

   The three frames are the generated ones (the reference's from its run, the result dropped). Nothing was rewritten by
   the idealization, so there is nothing to preserve. The value claim: the kernel program's result buffer ends at
   `KValue.result` of the eight argument arrays (the generated frame run with the result kept, read boundary by boundary:
   KernelValue.lean over the three kernels' arrays, Region0/1/2.lean); the reference's ends at the last stage of its
   operations (RefRun.lean, RefAfter.lean), which is `Spec.outR` of its own neighbour sums (RefValue.lean); and the two are
   one function of arguments that are real numbers (Equal.lean: dividing by a non-zero degree is multiplying by its
   reciprocal; the average of the projected rows is the projection of the average), which the precondition gives
   (Finite.lean). -/
import proofs.«414649_j38156489457766_3_alg».proof.Defs
import proofs.«414649_j38156489457766_3_alg».proof.Proof.Gen.Kernel
import proofs.«414649_j38156489457766_3_alg».proof.Proof.Gen.Kernel.Skeleton
import proofs.«414649_j38156489457766_3_alg».proof.Proof.Gen.Kernel.Launch
import proofs.«414649_j38156489457766_3_alg».proof.Proof.Gen.Kernel.Points
import proofs.«414649_j38156489457766_3_alg».proof.Proof.Gen.Kernel.Frame
import proofs.«414649_j38156489457766_3_alg».proof.Proof.Gen.KernelIdeal
import proofs.«414649_j38156489457766_3_alg».proof.Proof.Gen.KernelIdeal.Skeleton
import proofs.«414649_j38156489457766_3_alg».proof.Proof.Gen.KernelIdeal.Launch
import proofs.«414649_j38156489457766_3_alg».proof.Proof.Gen.KernelIdeal.Points
import proofs.«414649_j38156489457766_3_alg».proof.Proof.Gen.KernelIdeal.Frame
import proofs.«414649_j38156489457766_3_alg».proof.Proof.Gen.ReferenceIdeal
import proofs.«414649_j38156489457766_3_alg».proof.Proof.Gen.Pre_finite_inputs
import proofs.«414649_j38156489457766_3_alg».proof.Proof.KernelRun
import proofs.«414649_j38156489457766_3_alg».proof.Proof.KernelValue
import proofs.«414649_j38156489457766_3_alg».proof.Proof.RefRun
import proofs.«414649_j38156489457766_3_alg».proof.Proof.RefAfter
import proofs.«414649_j38156489457766_3_alg».proof.Proof.Equal
import proofs.«414649_j38156489457766_3_alg».proof.Proof.Finite
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the same array: the kernel program's result is `KValue.result` of its arguments, the
    reference's the last stage of its operations of arguments that agree with them, and on real arguments these are one
    function. -/
theorem algebraic : Cert.algebraic_KernelIdeal_ReferenceIdeal := by
  intro m ρ m' ρ' hpre hagree
  refine ⟨fun c => Cert.KernelIdeal.KValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KValue.W6_result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h2, h3, h4, h5, -, -⟩ := Cert.Pre_finite_inputs.Finite.reals_of_fn _ _ _ _ _ _ _ _ (hpre c)
    rw [Cert.ReferenceIdeal.RefAfter.after_v59 m' c, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.Proof.Equal.result_eq _ _ _ _ _ _ _ _ h0 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
